-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v12_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v12_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x2048 : Shape := ⟨2, ![8192, 2048]⟩
abbrev S2048x3072 : Shape := ⟨2, ![2048, 3072]⟩
abbrev S2048 : Shape := ⟨1, ![2048]⟩
abbrev S2048x2048 : Shape := ⟨2, ![2048, 2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x3072 : S_.BroadcastsInDim S2048x3072 (![] : Fin 0 → Fin S2048x3072.rank)
  reducesTo_S2048x3072_S_d0_1 : S2048x3072.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_

variable [Facts]

def fn_part3 {F : FTy → Type} [FloatOps F] (main_arg11 : FVec F S2048x2048 .f32) (main_arg12 : FVec F S2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  main_v63

def fn_part2 {F : FTy → Type} [FloatOps F] (main_arg7 : FVec F S2048x3072 .f32) (main_arg8 : FVec F S2048 .f32) (main_arg9 : FVec F S2048x3072 .f32) (main_arg10 : FVec F S2048 .f32) (main_arg11 : FVec F S2048x2048 .f32) (main_arg12 : FVec F S2048 .f32) (main_v33 : IVec S_ 1) : IVec S_ 1 :=
  let main_v34 : FVec F S2048x3072 .f32 := Host.absf main_arg7
  let main_cst_12 : FVec F S_ .f32 := constant S_ .f32 0x7F800000#32
  let main_v35 : FVec F S2048x3072 .f32 := broadcastInDim S2048x3072 ![] bcast_S_S2048x3072 main_cst_12
  let main_v36 : IVec S2048x3072 1 := cmpf .olt main_v34 main_v35
  let main_c_13 : IVec S_ 1 := constantI S_ 1 1#1
  let main_v37 : IVec S_ 1 := (fun x v => Host.reduce IntOp.andi x v reducesTo_S2048x3072_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x3072 .f32 := Host.absf main_arg9
  let main_cst_16 : FVec F S_ .f32 := constant S_ .f32 0x7F800000#32
  let main_v45 : FVec F S2048x3072 .f32 := broadcastInDim S2048x3072 ![] bcast_S_S2048x3072 main_cst_16
  let main_v46 : IVec S2048x3072 1 := cmpf .olt main_v44 main_v45
  let main_c_17 : IVec S_ 1 := constantI S_ 1 1#1
  let main_v47 : IVec S_ 1 := (fun x v => Host.reduce IntOp.andi x v reducesTo_S2048x3072_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_v48 main_v49 main_v50

def fn_part1 {F : FTy → Type} [FloatOps F] (main_arg4 : FVec F S2048 .f32) (main_arg5 : FVec F S2048x3072 .f32) (main_arg6 : FVec F S2048 .f32) (main_arg7 : FVec F S2048x3072 .f32) (main_arg8 : FVec F S2048 .f32) (main_arg9 : FVec F S2048x3072 .f32) (main_arg10 : FVec F S2048 .f32) (main_arg11 : FVec F S2048x2048 .f32) (main_arg12 : FVec F S2048 .f32) (main_v13 : IVec S_ 1) (main_v16 : IVec S2048x3072 1) : IVec S_ 1 :=
  let main_c_5 : IVec S_ 1 := constantI S_ 1 1#1
  let main_v17 : IVec S_ 1 := (fun x v => Host.reduce IntOp.andi x v reducesTo_S2048x3072_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x3072 .f32 := Host.absf main_arg5
  let main_cst_8 : FVec F S_ .f32 := constant S_ .f32 0x7F800000#32
  let main_v25 : FVec F S2048x3072 .f32 := broadcastInDim S2048x3072 ![] bcast_S_S2048x3072 main_cst_8
  let main_v26 : IVec S2048x3072 1 := cmpf .olt main_v24 main_v25
  let main_c_9 : IVec S_ 1 := constantI S_ 1 1#1
  let main_v27 : IVec S_ 1 := (fun x v => Host.reduce IntOp.andi x v reducesTo_S2048x3072_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8192x1024 .f32) (main_arg1 : FVec F S8192x2048 .f32) (main_arg2 : FVec F S8192x2048 .f32) (main_arg3 : FVec F S2048x3072 .f32) (main_arg4 : FVec F S2048 .f32) (main_arg5 : FVec F S2048x3072 .f32) (main_arg6 : FVec F S2048 .f32) (main_arg7 : FVec F S2048x3072 .f32) (main_arg8 : FVec F S2048 .f32) (main_arg9 : FVec F S2048x3072 .f32) (main_arg10 : FVec F S2048 .f32) (main_arg11 : FVec F S2048x2048 .f32) (main_arg12 : FVec F S2048 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x3072 .f32 := Host.absf main_arg3
  let main_cst_4 : FVec F S_ .f32 := constant S_ .f32 0x7F800000#32
  let main_v15 : FVec F S2048x3072 .f32 := broadcastInDim S2048x3072 ![] bcast_S_S2048x3072 main_cst_4
  let main_v16 : IVec S2048x3072 1 := cmpf .olt main_v14 main_v15
  fn_part1 (F := F) main_arg4 main_arg5 main_arg6 main_arg7 main_arg8 main_arg9 main_arg10 main_arg11 main_arg12 main_v13 main_v16
-- ==== Kernel.lean ====
abbrev S8192x1024 : Shape := ⟨2, ![8192, 1024]⟩
abbrev S8192x2048 : Shape := ⟨2, ![8192, 2048]⟩
abbrev S2048x3072 : Shape := ⟨2, ![2048, 3072]⟩
abbrev S2048 : Shape := ⟨1, ![2048]⟩
abbrev S2048x2048 : Shape := ⟨2, ![2048, 2048]⟩
abbrev S8192x3072 : Shape := ⟨2, ![8192, 3072]⟩
abbrev S1x2048 : Shape := ⟨2, ![1, 2048]⟩
abbrev S256x3072 : Shape := ⟨2, ![256, 3072]⟩
abbrev S512x3072 : Shape := ⟨2, ![512, 3072]⟩
abbrev S1x512 : Shape := ⟨2, ![1, 512]⟩
abbrev S256x512 : Shape := ⟨2, ![256, 512]⟩
abbrev S256x2048 : Shape := ⟨2, ![256, 2048]⟩

abbrev nBuf : Space → Nat
  | .hbm => 28
  | .vmem => 32
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x2048, .f32⟩
  | .hbm, ⟨3, _⟩ => ⟨S2048x3072, .f32⟩
  | .hbm, ⟨4, _⟩ => ⟨S2048, .f32⟩
  | .hbm, ⟨5, _⟩ => ⟨S2048x3072, .f32⟩
  | .hbm, ⟨6, _⟩ => ⟨S2048, .f32⟩
  | .hbm, ⟨7, _⟩ => ⟨S2048x3072, .f32⟩
  | .hbm, ⟨8, _⟩ => ⟨S2048, .f32⟩
  | .hbm, ⟨9, _⟩ => ⟨S2048x3072, .f32⟩
  | .hbm, ⟨10, _⟩ => ⟨S2048, .f32⟩
  | .hbm, ⟨11, _⟩ => ⟨S2048x2048, .f32⟩
  | .hbm, ⟨12, _⟩ => ⟨S2048, .f32⟩
  | .hbm, ⟨13, _⟩ => ⟨S8192x3072, .f32⟩
  | .hbm, ⟨14, _⟩ => ⟨S8192x3072, .bf16⟩
  | .hbm, ⟨15, _⟩ => ⟨S2048x3072, .bf16⟩
  | .hbm, ⟨16, _⟩ => ⟨S2048x3072, .bf16⟩
  | .hbm, ⟨17, _⟩ => ⟨S2048x3072, .bf16⟩
  | .hbm, ⟨18, _⟩ => ⟨S2048x3072, .bf16⟩
  | .hbm, ⟨19, _⟩ => ⟨S2048x2048, .bf16⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .local _ .vmem, ⟨0, _⟩ => ⟨S256x3072, .bf16⟩
  | .local _ .vmem, ⟨1, _⟩ => ⟨S256x3072, .bf16⟩
  | .local _ .vmem, ⟨2, _⟩ => ⟨S512x3072, .bf16⟩
  | .local _ .vmem, ⟨3, _⟩ => ⟨S512x3072, .bf16⟩
  | .local _ .vmem, ⟨4, _⟩ => ⟨S512x3072, .bf16⟩
  | .local _ .vmem, ⟨5, _⟩ => ⟨S512x3072, .bf16⟩
  | .local _ .vmem, ⟨6, _⟩ => ⟨S512x3072, .bf16⟩
  | .local _ .vmem, ⟨7, _⟩ => ⟨S512x3072, .bf16⟩
  | .local _ .vmem, ⟨8, _⟩ => ⟨S512x3072, .bf16⟩
  | .local _ .vmem, ⟨9, _⟩ => ⟨S512x3072, .bf16⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x2048, .f32⟩
  | .local _ .vmem, ⟨25, _⟩ => ⟨S256x2048, .f32⟩
  | .local _ .vmem, ⟨26, _⟩ => ⟨S256x2048, .f32⟩
  | .local _ .vmem, ⟨27, _⟩ => ⟨S256x2048, .f32⟩
  | .local _ .vmem, ⟨28, _⟩ => ⟨S2048x2048, .bf16⟩
  | .local _ .vmem, ⟨29, _⟩ => ⟨S1x2048, .f32⟩
  | .local _ .vmem, ⟨30, _⟩ => ⟨S256x2048, .f32⟩
  | .local _ .vmem, ⟨31, _⟩ => ⟨S256x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg1_1 : Ref sig .tc := ⟨.vmem, 27, rfl⟩
abbrev cc1_stg2_0 : Ref sig .tc := ⟨.vmem, 28, rfl⟩
abbrev cc1_stg3_0 : Ref sig .tc := ⟨.vmem, 29, rfl⟩
abbrev cc1_stg4_0 : Ref sig .tc := ⟨.vmem, 30, rfl⟩
abbrev cc1_stg4_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem3_0 : DmaSem sig := 29
abbrev cc1_sem4_0 : DmaSem sig := 30
abbrev cc1_sem4_1 : DmaSem sig := 31

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2048x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  concatenates_S8192x1024_S8192x2048_S8192x3072_d1 : Shape.Concatenates [S8192x1024, S8192x2048] S8192x3072 1
  bitsLt_bf16_f32 : FTy.bits .bf16 < FTy.bits .f32
  shapeCasts_S2048_S1x2048 : S2048.ShapeCasts S1x2048
  inb_S256x3072_S256x3072_0_0 : ∀ a, (![0, 0] : Fin 2 → Nat) a + S256x3072.size a ≤ S256x3072.size a
  h_S256x3072 : 0 < S256x3072.numel
  shapeCasts_S256x3072_S256x3072 : S256x3072.ShapeCasts S256x3072
  inb_S512x3072_S512x3072_0_0 : ∀ a, (![0, 0] : Fin 2 → Nat) a + S512x3072.size a ≤ S512x3072.size a
  h_S512x3072 : 0 < S512x3072.numel
  shapeCasts_S512x3072_S512x3072 : S512x3072.ShapeCasts S512x3072
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  dot_S256x3072_S512x3072_S256x512_1_1_0_0_n_n_wf : DotDims.WF S256x3072 S512x3072 S256x512 [1] [1] [0] [0] [] []
  dot_S256x2048_S2048x2048_S256x2048_1_1_0_0_n_n_wf : DotDims.WF S256x2048 S2048x2048 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3072.size a ≤ S8192x3072.size a
  hwx0_0 : ∀ i : grid0.Coords, EltTy.bits .bf16 = 32 ∨ (Rect.block (s := S8192x3072) S256x3072.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x3072.size a ≤ S2048x3072.size a
  hwx0_1 : ∀ i : grid0.Coords, EltTy.bits .bf16 = 32 ∨ (Rect.block (s := S2048x3072) S512x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3072.size a ≤ S2048x3072.size a
  hwx0_2 : ∀ i : grid0.Coords, EltTy.bits .bf16 = 32 ∨ (Rect.block (s := S2048x3072) S512x3072.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S2048x3072.size a
  hwx0_3 : ∀ i : grid0.Coords, EltTy.bits .bf16 = 32 ∨ (Rect.block (s := S2048x3072) S512x3072.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x3072.size a ≤ S2048x3072.size a
  hwx0_4 : ∀ i : grid0.Coords, EltTy.bits .bf16 = 32 ∨ (Rect.block (s := S2048x3072) S512x3072.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x2048.size a
  hwx0_5 : ∀ i : grid0.Coords, EltTy.bits .f32 = 32 ∨ (Rect.block (s := S1x2048) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x2048.size a
  hwx0_6 : ∀ i : grid0.Coords, EltTy.bits .f32 = 32 ∨ (Rect.block (s := S1x2048) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x2048.size a
  hwx0_7 : ∀ i : grid0.Coords, EltTy.bits .f32 = 32 ∨ (Rect.block (s := S1x2048) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x2048.size a
  hwx0_8 : ∀ i : grid0.Coords, EltTy.bits .f32 = 32 ∨ (Rect.block (s := S1x2048) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x512.size a ≤ S8192x2048.size a
  hwx0_9 : ∀ i : grid0.Coords, EltTy.bits .f32 = 32 ∨ (Rect.block (s := S8192x2048) S256x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x512.size a ≤ S8192x2048.size a
  hwx0_10 : ∀ i : grid0.Coords, EltTy.bits .f32 = 32 ∨ (Rect.block (s := S8192x2048) S256x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x512.size a ≤ S8192x2048.size a
  hwx0_11 : ∀ i : grid0.Coords, EltTy.bits .f32 = 32 ∨ (Rect.block (s := S8192x2048) S256x512.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S8192x2048.size a
  hwx1_0 : ∀ i : grid1.Coords, EltTy.bits .f32 = 32 ∨ (Rect.block (s := S8192x2048) S256x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S8192x2048.size a
  hwx1_1 : ∀ i : grid1.Coords, EltTy.bits .f32 = 32 ∨ (Rect.block (s := S8192x2048) S256x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x2048.size a ≤ S2048x2048.size a
  hwx1_2 : ∀ i : grid1.Coords, EltTy.bits .bf16 = 32 ∨ (Rect.block (s := S2048x2048) S2048x2048.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x2048.size a
  hwx1_3 : ∀ i : grid1.Coords, EltTy.bits .f32 = 32 ∨ (Rect.block (s := S1x2048) S1x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x2048.size a ≤ S8192x2048.size a
  hwx1_4 : ∀ i : grid1.Coords, EltTy.bits .f32 = 32 ∨ (Rect.block (s := S8192x2048) S256x2048.size (cc1_transform_4 i) (hinb1_4 i)).WholeWords (EltTy.packing .f32)

variable [Facts₀]

def dot_S256x3072_S512x3072_S256x512_1_1_0_0_n_n : DotDims S256x3072 S512x3072 S256x512 where
  lhsContracting := [1]
  rhsContracting := [1]
  lhsNonContracting := [0]
  rhsNonContracting := [0]
  lhsBatch := []
  rhsBatch := []
  wf := dot_S256x3072_S512x3072_S256x512_1_1_0_0_n_n_wf
def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf

abbrev win0_0 : Pipeline.Window sig grid0 :=
  Pipeline.Window.ofSpec (Memref.whole main_v1) S256x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x3072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x3072.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x3072.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x3072.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg2) S256x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v12_0) S256x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v12_1) S256x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v12_0) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12_1) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S2048x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S256x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S8192x2048 : Shape := ⟨2, ![8192, 2048]⟩
abbrev S2048x3072 : Shape := ⟨2, ![2048, 3072]⟩
abbrev S2048 : Shape := ⟨1, ![2048]⟩
abbrev S2048x2048 : Shape := ⟨2, ![2048, 2048]⟩
abbrev S8192x3072 : Shape := ⟨2, ![8192, 3072]⟩
abbrev S8192 : Shape := ⟨1, ![8192]⟩
abbrev S3072x8192 : Shape := ⟨2, ![3072, 8192]⟩
abbrev S8192x8192 : Shape := ⟨2, ![8192, 8192]⟩
abbrev S1x8192 : Shape := ⟨2, ![1, 8192]⟩
abbrev S_ : Shape := ⟨0, ![]⟩
abbrev S1x2048 : Shape := ⟨2, ![1, 2048]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x2048, .f32⟩
  | .hbm, ⟨3, _⟩ => ⟨S2048x3072, .f32⟩
  | .hbm, ⟨4, _⟩ => ⟨S2048, .f32⟩
  | .hbm, ⟨5, _⟩ => ⟨S2048x3072, .f32⟩
  | .hbm, ⟨6, _⟩ => ⟨S2048, .f32⟩
  | .hbm, ⟨7, _⟩ => ⟨S2048x3072, .f32⟩
  | .hbm, ⟨8, _⟩ => ⟨S2048, .f32⟩
  | .hbm, ⟨9, _⟩ => ⟨S2048x3072, .f32⟩
  | .hbm, ⟨10, _⟩ => ⟨S2048, .f32⟩
  | .hbm, ⟨11, _⟩ => ⟨S2048x2048, .f32⟩
  | .hbm, ⟨12, _⟩ => ⟨S2048, .f32⟩
  | .hbm, ⟨13, _⟩ => ⟨S8192x3072, .f32⟩
  | .hbm, ⟨14, _⟩ => ⟨S8192x3072, .f32⟩
  | .hbm, ⟨15, _⟩ => ⟨S8192, .f32⟩
  | .hbm, ⟨16, _⟩ => ⟨S3072x8192, .f32⟩
  | .hbm, ⟨17, _⟩ => ⟨S8192x8192, .f32⟩
  | .hbm, ⟨18, _⟩ => ⟨S1x8192, .f32⟩
  | .hbm, ⟨19, _⟩ => ⟨S8192x8192, .f32⟩
  | .hbm, ⟨20, _⟩ => ⟨S8192x8192, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S2048x2048, .f32⟩
  | .hbm, ⟨54, _⟩ => ⟨S8192x2048, .f32⟩
  | .hbm, ⟨55, _⟩ => ⟨S1x2048, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]

class Facts₀ : Prop where
  concatenates_S8192x1024_S8192x2048_S8192x3072_d1 : Shape.Concatenates [S8192x1024, S8192x2048] S8192x3072 1
  concatenates_S2048x3072_S2048x3072_S2048x3072_S2048x3072_S8192x3072_d0 : Shape.Concatenates [S2048x3072, S2048x3072, S2048x3072, S2048x3072] S8192x3072 0
  concatenates_S2048_S2048_S2048_S2048_S8192_d0 : Shape.Concatenates [S2048, S2048, S2048, S2048] S8192 0
  transposes_S8192x3072_S3072x8192_1_0 : S8192x3072.Transposes [1, 0] S3072x8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  slices_S8192x8192_S8192x2048_0_0 : S8192x8192.Slices ![0, 0] S8192x2048
  slices_S8192x8192_S8192x2048_0_2048 : S8192x8192.Slices ![0, 2048] S8192x2048
  slices_S8192x8192_S8192x2048_0_4096 : S8192x8192.Slices ![0, 4096] S8192x2048
  slices_S8192x8192_S8192x2048_0_6144 : S8192x8192.Slices ![0, 6144] S8192x2048
  bcast_S_S8192x2048 : S_.BroadcastsInDim S8192x2048 (![] : Fin 0 → Fin S8192x2048.rank)
  transposes_S2048x2048_S2048x2048_1_0 : S2048x2048.Transposes [1, 0] S2048x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  dot_S8192x3072_S3072x8192_S8192x8192_1_0_0_1_n_n_wf : DotDims.WF S8192x3072 S3072x8192 S8192x8192 [1] [0] [0] [1] [] []
  dot_S8192x2048_S2048x2048_S8192x2048_1_0_0_1_n_n_wf : DotDims.WF S8192x2048 S2048x2048 S8192x2048 [1] [0] [0] [1] [] []

variable [Facts₀]

def dot_S8192x3072_S3072x8192_S8192x8192_1_0_0_1_n_n : DotDims S8192x3072 S3072x8192 S8192x8192 where
  lhsContracting := [1]
  rhsContracting := [0]
  lhsNonContracting := [0]
  rhsNonContracting := [1]
  lhsBatch := []
  rhsBatch := []
  wf := dot_S8192x3072_S3072x8192_S8192x8192_1_0_0_1_n_n_wf
def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.Spec.lean ====
/-
  The LSTM cell both programs compute, as functions of the argument arrays over the extended reals.

  With `cb` the row-wise concatenation of the input and the short-term state, a gate's pre-activation at
  batch row `p` and hidden unit `q` is `∑ k, cb (p, k) · W (q, k) + b q` (`affine`): the weight is contracted
  along its second axis, i.e. the product is with the transposed weight. The new cell state is
  `σ(z_f) · long + σ(z_i) · tanh(z_c)` (`cellState`), the output gate `σ(z_o)` (`outGate`), and the
  returned hidden value `tanh(affine cellState W_h2o b_h2o) · outGate` (`hidden`), with
  `σ z = 1 / (1 + e^(-z))` and every operation the extended reals' own.
-/
import Idealize.ShloMosaic.Lib.ValueIdx
import Idealize.ShloMosaic.PureOps.Ideal.Laws

open scoped BigOperators

noncomputable section

namespace Cert.Lstm

open Idealize.ShloMosaic Idealize.ShloMosaic.ValueIdx

/-- A matrix of extended reals of literal extents. -/
abbrev Mat (a b : Nat) : Type := (⟨2, ![a, b]⟩ : Shape).Idx → EReal
/-- A vector of extended reals of literal extent. -/
abbrev Row (a : Nat) : Type := (⟨1, ![a]⟩ : Shape).Idx → EReal

/-- A one-row matrix read as a vector: the bias as the kernel is handed it. -/
def rowOf {H : Nat} (b2 : Mat 1 H) : Row H := fun i => b2 (ix2 0 (i 0))

/-- A linear layer at one output entry: row `p` of `cb` against row `q` of `W`, plus the bias at `q`. -/
def affine {B D H : Nat} (cb : Mat B D) (W : Mat H D) (b : Row H) (p : Fin B) (q : Fin H) : EReal :=
  (∑ k : Fin D, cb (ix2 p k) * W (ix2 q k)) + b (ix1 q)

/-- The new cell state: forget gate times the old state plus input gate times the candidate. -/
def cellState {B D H : Nat} (cb : Mat B D) (long : Mat B H) (Wf : Mat H D) (bf : Row H) (Wi : Mat H D) (bi : Row H)
    (Wc : Mat H D) (bc : Row H) : Mat B H := fun j =>
  Ideal.logistic (affine cb Wf bf (j 0) (j 1)) * long (ix2 (j 0) (j 1))
    + Ideal.logistic (affine cb Wi bi (j 0) (j 1)) * Ideal.tanh (affine cb Wc bc (j 0) (j 1))

/-- The output gate. -/
def outGate {B D H : Nat} (cb : Mat B D) (Wo : Mat H D) (bo : Row H) : Mat B H := fun j =>
  Ideal.logistic (affine cb Wo bo (j 0) (j 1))

/-- The returned hidden value: the squashed projection of the new cell state, gated. -/
def hidden {B H : Nat} (cn og : Mat B H) (Wh : Mat H H) (bh : Row H) : Mat B H := fun j =>
  Ideal.tanh (affine cn Wh bh (j 0) (j 1)) * og (ix2 (j 0) (j 1))

end Cert.Lstm

end
-- ==== Proof.LibDotNT.lean ====
/-
  A matrix product with the right operand transposed, `[M, K] × [N, K] → [M, N]`, read at one element, at the
  ideal values, at any extents.

  Both operands are contracted along their second axis and there is no batch axis (the einsum `md,nd->mn`).
  Whether it is a kernel's `tpu.matmul` into a zero accumulator or a host program's `dot_general`, the element
  `(p, q)` of the product is `∑ k, lhs (p, k) · rhs (q, k)` on the extended reals, `k` running over the `K`
  positions of the contracted axis. The dimension numbers enter through equations on their lists, so that a
  program's own record (whose lists are literals) supplies each by `rfl`.
-/
import Idealize.ShloMosaic.Lib.ValueIdx
import Idealize.ShloMosaic.PureOps.Ideal.Laws

open scoped BigOperators

namespace Idealize.ShloMosaic.DotNT

open Idealize.ShloMosaic Idealize.ShloMosaic.ValueIdx

variable {M K N : Nat} (d : DotDims ⟨2, ![M, K]⟩ ⟨2, ![N, K]⟩ ⟨2, ![M, N]⟩)

/-- Among equal positions an index has equal coordinates (the positions here are sums of list lengths). -/
private theorem val_congr {s : Shape} (j : s.Idx) (a b : Nat) (ha : a < s.rank) (hb : b < s.rank) (h : a = b) :
    (j ⟨a, ha⟩).val = (j ⟨b, hb⟩).val := by subst h; rfl

/-- The left operand's row is the result's row. -/
theorem lhs_row (hlb : d.lhsBatch = []) (hln : d.lhsNonContracting = [0]) (j : (⟨2, ![M, N]⟩ : Shape).Idx)
    (k : d.contr.Idx) : (d.lhsIdx j k 0).val = (j 0).val := by
  unfold DotDims.lhsIdx
  rw [dif_neg (by rw [hlb]; exact List.not_mem_nil),
    dif_pos (show (0 : Fin 2) ∈ d.lhsNonContracting by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the result's column. -/
theorem rhs_row (hlb : d.lhsBatch = []) (hrb : d.rhsBatch = []) (hln : d.lhsNonContracting = [0])
    (hrn : d.rhsNonContracting = [0]) (j : (⟨2, ![M, N]⟩ : Shape).Idx) (k : d.contr.Idx) :
    (d.rhsIdx j k 0).val = (j 1).val := by
  unfold DotDims.rhsIdx
  rw [dif_neg (by rw [hrb]; exact List.not_mem_nil),
    dif_pos (show (0 : Fin 2) ∈ d.rhsNonContracting by rw [hrn]; exact List.mem_singleton.mpr rfl)]
  simp only [Fin.val_cast]
  exact val_congr j _ _ _ _ (by simp [hlb, hln, hrn])

/-- The right operand's column is the contraction position. -/
theorem rhs_col (hrc : d.rhsContracting = [1]) (j : (⟨2, ![M, N]⟩ : Shape).Idx) (k : d.contr.Idx) :
    (d.rhsIdx j k 1).val = (k ⟨0, by rw [d.rank_contr, ← d.length_contracting, hrc]; exact Nat.one_pos⟩).val :=
  d.rhsIdx_val_of_single hrc j k

section Sum

variable (hlb : d.lhsBatch = []) (hrb : d.rhsBatch = []) (hln : d.lhsNonContracting = [0])
  (hrn : d.rhsNonContracting = [0]) (hlc : d.lhsContracting = [1]) (hrc : d.rhsContracting = [1])
  (hr : d.contr.rank = 1) (hs : d.contr.size ⟨0, by omega⟩ = K)

include hlb hrb hln hrn hlc hrc hr hs

/-- The contraction's sum, its index set re-indexed by the contracted axis's positions. -/
theorem sum_contr (lhs : (⟨2, ![M, K]⟩ : Shape).Idx → EReal) (rhs : (⟨2, ![N, K]⟩ : Shape).Idx → EReal) (p : Fin M)
    (q : Fin N) :
    ∑ k : d.contr.Idx, lhs (d.lhsIdx (ix2 p q) k) * rhs (d.rhsIdx (ix2 p q) k)
      = ∑ k : Fin K, lhs (ix2 p k) * rhs (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := by
    funext a; refine Fin.ext ?_
    match a with
    | ⟨0, _⟩ => exact lhs_row d hlb hln _ _
    | ⟨1, _⟩ => exact (lhs_col d hlc _ _).trans hk
  have er : d.rhsIdx (ix2 p q) ((contrEquiv1 d K hr hs).symm k) = ix2 q k := by
    funext a; refine Fin.ext ?_
    match a with
    | ⟨0, _⟩ => exact rhs_row d hlb hrb hln hrn _ _
    | ⟨1, _⟩ => exact (rhs_col d hrc _ _).trans hk
  rw [el, er]

/-- A kernel's `tpu.matmul` into the zero splat, at `(p, q)`. -/
theorem matmul_zero_apply {φ₁ φ₂ : FTy} (prec : Option ContractPrecision) (lhs : FVec Ideal ⟨2, ![M, K]⟩ φ₁)
    (rhs : FVec Ideal ⟨2, ![N, K]⟩ φ₂) (p : Fin M) (q : Fin N) :
    matmul d prec lhs rhs (constant ⟨2, ![M, N]⟩ .f32 0x00000000#32) (ix2 p q)
      = ∑ k : Fin K, lhs (ix2 p k) * rhs (ix2 q k) := by
  show FloatOps.matmul d prec lhs rhs (constant ⟨2, ![M, N]⟩ .f32 0x00000000#32) (ix2 p q) = _
  rw [Ideal.matmul_constant_zero_apply]
  exact sum_contr d hlb hrb hln hrn hlc hrc hr hs lhs rhs p q

/-- A host program's `dot_general`, at `(p, q)`. -/
theorem dotGeneral_apply {φ₁ φ₂ : FTy} (prec : Option ContractPrecision) (lhs : FVec Ideal ⟨2, ![M, K]⟩ φ₁)
    (rhs : FVec Ideal ⟨2, ![N, K]⟩ φ₂) (p : Fin M) (q : Fin N) :
    Host.dotGeneral d prec lhs rhs (ix2 p q) = ∑ k : Fin K, lhs (ix2 p k) * rhs (ix2 q k) := by
  show FloatOps.dotGeneral d prec .single lhs rhs (ix2 p q) = _
  rw [Ideal.dotGeneral_apply]
  exact sum_contr d hlb hrb hln hrn hlc hrc hr hs lhs rhs p q

end Sum

end Idealize.ShloMosaic.DotNT
-- ==== Proof.Region0Pay.lean ====
/-
  Region 0's arithmetic, read at one element.

  The first kernel computes, for a block of 256 batch rows and 512 hidden units, four gate pre-activations
  `∑ k, x (p, k) · w (q, k) + b (0, q)` (a product with the transposed weight block plus the bias row), squashes
  three of them with the logistic function and one with the hyperbolic tangent, and combines them with the old
  cell state: `σ(z_f) · c + σ(z_i) · tanh(z_c)` for the new cell state, `σ(z_o)` for the output gate. Here each
  payload of the kernel body is read at the element `(p, q)` of its block, over arbitrary block contents.
-/
import proofs.«110690_j36258113913000_1_alg».proof.Proof.Gen.KernelIdeal.Skeleton
import proofs.«110690_j36258113913000_1_alg».proof.Proof.LibDotNT
import Idealize.ShloMosaic.Lib.Pipeline.Value

open scoped BigOperators

noncomputable section

namespace Cert.KernelIdeal.Cell

open Idealize.ShloMosaic Idealize.ShloMosaic.ValueIdx Cert.KernelIdeal Cert.KernelIdeal.Gen

/-- A gate's pre-activation at row `p` and unit `q` of a block: row `p` of the input block against row `q` of
    the weight block, plus the bias row's entry `q`. -/
def gatePre (x : FVec Ideal S256x3072 .bf16) (w : FVec Ideal S512x3072 .bf16) (b : FVec Ideal S1x512 .f32)
    (p : Fin 256) (q : Fin 512) : EReal :=
  (∑ k : Fin 3072, x (ix2 p k) * w (ix2 q k)) + b (ix2 0 q)

/-- The bias row broadcast over the 256 rows reads the row's entry in every row. -/
theorem bias_bcast_apply (b : FVec Ideal S1x512 .f32) (p : Fin 256) (q : Fin 512) :
    broadcastTo S256x512 (shapeCast S1x512 b shapeCasts_S1x512_S1x512) broadcasts_S1x512_S256x512 (ix2 p q)
      = b (ix2 0 q) := by
  rw [shapeCast_self]
  refine broadcastTo_apply b _ (ix2 p q) (ix2 0 q) fun a => ?_
  match a with
  | ⟨0, _⟩ => rfl
  | ⟨1, _⟩ => rfl

/-- The product with the transposed weight block, into the zero accumulator, at `(p, q)`. -/
theorem prod_apply (x : FVec Ideal S256x3072 .bf16) (w : FVec Ideal S512x3072 .bf16) (p : Fin 256) (q : Fin 512) :
    matmul dot_S256x3072_S512x3072_S256x512_1_1_0_0_n_n none (k0_pay2 x)
        (shapeCast S512x3072 w shapeCasts_S512x3072_S512x3072) (constant (F := Ideal) S256x512 .f32 0x00000000#32) (ix2 p q)
      = ∑ k : Fin 3072, x (ix2 p k) * w (ix2 q k) := by
  have ex : k0_pay2 x = x := shapeCast_self x _
  rw [ex, shapeCast_self]
  exact DotNT.matmul_zero_apply dot_S256x3072_S512x3072_S256x512_1_1_0_0_n_n rfl rfl rfl rfl rfl rfl rfl rfl none x w p q

/-- The sum of the two is the pre-activation. -/
theorem pre_apply (x : FVec Ideal S256x3072 .bf16) (w : FVec Ideal S512x3072 .bf16) (b : FVec Ideal S1x512 .f32)
    (p : Fin 256) (q : Fin 512) :
    addf (matmul dot_S256x3072_S512x3072_S256x512_1_1_0_0_n_n none (k0_pay2 x)
          (shapeCast S512x3072 w shapeCasts_S512x3072_S512x3072) (constant (F := Ideal) S256x512 .f32 0x00000000#32))
        (broadcastTo S256x512 (shapeCast S1x512 b shapeCasts_S1x512_S1x512) broadcasts_S1x512_S256x512) (ix2 p q)
      = gatePre x w b p q := by
  rw [addf_apply, prod_apply, bias_bcast_apply]
  rfl

/-- The forget gate at `(p, q)`. -/
theorem forget_apply (x : FVec Ideal S256x3072 .bf16) (w : FVec Ideal S512x3072 .bf16) (b : FVec Ideal S1x512 .f32)
    (p : Fin 256) (q : Fin 512) : k0_pay3 (F := Ideal) x w b (ix2 p q) = Ideal.logistic (gatePre x w b p q) :=
  congrArg Ideal.logistic (pre_apply x w b p q)

/-- The input gate at `(p, q)`. -/
theorem input_apply (x : FVec Ideal S256x3072 .bf16) (w : FVec Ideal S512x3072 .bf16) (b : FVec Ideal S1x512 .f32)
    (p : Fin 256) (q : Fin 512) : k0_pay4 (F := Ideal) x w b (ix2 p q) = Ideal.logistic (gatePre x w b p q) :=
  congrArg Ideal.logistic (pre_apply x w b p q)

/-- The candidate at `(p, q)`. -/
theorem cand_apply (x : FVec Ideal S256x3072 .bf16) (w : FVec Ideal S512x3072 .bf16) (b : FVec Ideal S1x512 .f32)
    (p : Fin 256) (q : Fin 512) : k0_pay5 (F := Ideal) x w b (ix2 p q) = Ideal.tanh (gatePre x w b p q) :=
  congrArg Ideal.tanh (pre_apply x w b p q)

/-- The output gate at `(p, q)`. -/
theorem out_apply (x : FVec Ideal S256x3072 .bf16) (w : FVec Ideal S512x3072 .bf16) (b : FVec Ideal S1x512 .f32)
    (p : Fin 256) (q : Fin 512) : k0_pay6 (F := Ideal) x w b (ix2 p q) = Ideal.logistic (gatePre x w b p q) :=
  congrArg Ideal.logistic (pre_apply x w b p q)

/-- The new cell state at `(p, q)`: forget gate times the old state plus input gate times the candidate. -/
theorem cell_apply (x : FVec Ideal S256x3072 .bf16) (wf wi wc : FVec Ideal S512x3072 .bf16)
    (bf bi bc : FVec Ideal S1x512 .f32) (old : FVec Ideal S256x512 .f32) (p : Fin 256) (q : Fin 512) :
    k0_pay1 (F := Ideal) (k0_pay3 x wf bf) (k0_pay4 x wi bi) (k0_pay5 x wc bc) old (ix2 p q)
      = Ideal.logistic (gatePre x wf bf p q) * old (ix2 p q)
        + Ideal.logistic (gatePre x wi bi p q) * Ideal.tanh (gatePre x wc bc p q) := by
  show k0_pay3 (F := Ideal) x wf bf (ix2 p q) * old (ix2 p q)
      + k0_pay4 (F := Ideal) x wi bi (ix2 p q) * k0_pay5 (F := Ideal) x wc bc (ix2 p q) = _
  rw [forget_apply, input_apply, cand_apply]

end Cert.KernelIdeal.Cell

end
-- ==== Proof.Region0Blocks.lean ====
/-
  Region 0's blocks: which rows and columns of the arrays each grid point reads and writes.

  The grid has 4 × 32 points. At the point whose output block is block `(i, j)` of the [8192, 2048] result
  (rows `256 i …`, columns `512 j …`), the kernel reads rows `256 i …` of the combined input, rows `512 j …` of
  each gate's weight, columns `512 j …` of each bias row and block `(i, j)` of the old cell state. So the element
  `(p, q)` of what the point writes is the LSTM cell's value at row `256 i + p` and unit `512 j + q` of the whole
  arrays, and the 128 output blocks tile the result.
-/
import proofs.«110690_j36258113913000_1_alg».proof.Proof.Gen.KernelIdeal.Frame
import proofs.«110690_j36258113913000_1_alg».proof.Proof.Spec
import proofs.«110690_j36258113913000_1_alg».proof.Proof.Region0Pay
import Idealize.ShloMosaic.Lib.Pipeline.Value

set_option maxRecDepth 16384

open scoped BigOperators

noncomputable section

namespace Cert.KernelIdeal.Cell

open Idealize.ShloMosaic Idealize.ShloMosaic.TcCoe Idealize.ShloMosaic.ValueIdx Idealize.SL.Sem
open Cert.KernelIdeal Cert.KernelIdeal.Gen

/-! ## A block's pre-activation is the layer's, at the block's place in the arrays -/

/-- If row `p` of the input block is row `P` of the input, row `q` of the weight block is row `Q` of the weight and
    entry `q` of the bias block is entry `Q` of the bias row, then the block's pre-activation at `(p, q)` is the
    linear layer's at `(P, Q)`. -/
theorem gatePre_eq_affine (cb : Cert.Lstm.Mat 8192 3072) (W : Cert.Lstm.Mat 2048 3072) (b2 : Cert.Lstm.Mat 1 2048)
    (x : FVec Ideal S256x3072 .bf16) (w : FVec Ideal S512x3072 .bf16) (b : FVec Ideal S1x512 .f32)
    (p : Fin 256) (q : Fin 512) (P : Fin 8192) (Q : Fin 2048)
    (hx : ∀ k, x (ix2 p k) = cb (ix2 P k)) (hw : ∀ k, w (ix2 q k) = W (ix2 Q k)) (hb : b (ix2 0 q) = b2 (ix2 0 Q)) :
    gatePre x w b p q = Cert.Lstm.affine cb W (Cert.Lstm.rowOf b2) P Q := by
  unfold gatePre Cert.Lstm.affine
  rw [hb]
  refine congrArg₂ (· + ·) (Finset.sum_congr rfl fun k _ => ?_) rfl
  rw [hx, hw]

/-! ## The index maps over the grid -/

theorem zero_offsets : (![0, 0] : Fin 2 → Nat) = fun _ => 0 := funext fun a => by fin_cases a <;> rfl

/-- The input's row block is the result's; it spans all 3072 columns. -/
theorem input_index : ∀ t : Fin cfg0.N,
    win0_0.index t (0 : Fin 2) = win0_10.index t (0 : Fin 2) ∧ win0_0.index t (1 : Fin 2) = 0 :=
  (by decide +kernel : ∀ t : Fin grid0.N, _)

/-- Each weight's row block is the result's column block; it spans all 3072 columns. -/
theorem weight_index : ∀ t : Fin cfg0.N,
    (win0_1.index t (0 : Fin 2) = win0_10.index t (1 : Fin 2) ∧ win0_1.index t (1 : Fin 2) = 0)
    ∧ (win0_2.index t (0 : Fin 2) = win0_10.index t (1 : Fin 2) ∧ win0_2.index t (1 : Fin 2) = 0)
    ∧ (win0_3.index t (0 : Fin 2) = win0_10.index t (1 : Fin 2) ∧ win0_3.index t (1 : Fin 2) = 0)
    ∧ (win0_4.index t (0 : Fin 2) = win0_10.index t (1 : Fin 2) ∧ win0_4.index t (1 : Fin 2) = 0) :=
  (by decide +kernel : ∀ t : Fin grid0.N, _)

/-- Each bias's column block is the result's; it has the one row. -/
theorem bias_index : ∀ t : Fin cfg0.N,
    (win0_5.index t (0 : Fin 2) = 0 ∧ win0_5.index t (1 : Fin 2) = win0_10.index t (1 : Fin 2))
    ∧ (win0_6.index t (0 : Fin 2) = 0 ∧ win0_6.index t (1 : Fin 2) = win0_10.index t (1 : Fin 2))
    ∧ (win0_7.index t (0 : Fin 2) = 0 ∧ win0_7.index t (1 : Fin 2) = win0_10.index t (1 : Fin 2))
    ∧ (win0_8.index t (0 : Fin 2) = 0 ∧ win0_8.index t (1 : Fin 2) = win0_10.index t (1 : Fin 2)) :=
  (by decide +kernel : ∀ t : Fin grid0.N, _)

/-- The old cell state's block is the new one's. -/
theorem state_index : ∀ t : Fin cfg0.N,
    win0_9.index t (0 : Fin 2) = win0_10.index t (0 : Fin 2) ∧ win0_9.index t (1 : Fin 2) = win0_10.index t (1 : Fin 2) :=
  (by decide +kernel : ∀ t : Fin grid0.N, _)

/-- The output gate's block is the cell state's. -/
theorem gate_index : ∀ t : Fin cfg0.N,
    win0_11.index t (0 : Fin 2) = win0_10.index t (0 : Fin 2) ∧ win0_11.index t (1 : Fin 2) = win0_10.index t (1 : Fin 2) :=
  (by decide +kernel : ∀ t : Fin grid0.N, _)

/-- Every block of the cell state's 32 × 4 blocks is some point's. -/
theorem cell_index_onto : ∀ (i : Fin 32) (j : Fin 4), ∃ t : Fin cfg0.N, win0_10.index t = ![i.val, j.val] :=
  (by decide +kernel : ∀ (i : Fin 32) (j : Fin 4), ∃ t : Fin grid0.N, win0_10.index t = ![i.val, j.val])

/-- Every block of the output gate's 32 × 4 blocks is some point's. -/
theorem gate_index_onto : ∀ (i : Fin 32) (j : Fin 4), ∃ t : Fin cfg0.N, win0_11.index t = ![i.val, j.val] :=
  (by decide +kernel : ∀ (i : Fin 32) (j : Fin 4), ∃ t : Fin grid0.N, win0_11.index t = ![i.val, j.val])

variable (V : (c : Dev nD) → (b : Ref sig .tc) → Buf (Elt Ideal) ((c : Thread nD τ).loc b))

/-! ## Each input block, read where the result's block says

Throughout, `(i, j)` is the cell state's block at the point, `P = 256 i + p` a row of the batch and
`Q = 512 j + q` a hidden unit. -/

/-- Row `p` of the input block is row `P` of the combined input. -/
theorem input_block (c : Dev nD) (t : Fin cfg0.N) (p : Fin 256) (k : Fin 3072) (P : Fin 8192)
    (hP : P.val = win0_10.index t (0 : Fin 2) * 256 + p.val) :
    iblk0 (F := Ideal) V c 0 t (ix2 p k) = V c main_v1 (ix2 P k) := by
  obtain ⟨e0, e1⟩ := input_index t
  show V c main_v1 (((cfg0.win 0).blk t).view.emb (ix2 p k)) = V c main_v1 (ix2 P k)
  have h : ((cfg0.win 0).blk t).view.emb (ix2 p k) = ix2 P k := by
    funext a; apply Fin.ext
    match a with
    | ⟨0, _⟩ => show win0_0.index t (0 : Fin 2) * 256 + 1 * p.val = P.val; omega
    | ⟨1, _⟩ => show win0_0.index t (1 : Fin 2) * 3072 + 1 * k.val = k.val; omega
  rw [h]

/-- Row `q` of the forget gate's weight block is row `Q` of the weight. -/
theorem forget_weight_block (c : Dev nD) (t : Fin cfg0.N) (q : Fin 512) (k : Fin 3072) (Q : Fin 2048)
    (hQ : Q.val = win0_10.index t (1 : Fin 2) * 512 + q.val) :
    iblk0 (F := Ideal) V c 1 t (ix2 q k) = V c main_v2 (ix2 Q k) := by
  obtain ⟨⟨e0, e1⟩, -⟩ := weight_index t
  show V c main_v2 (((cfg0.win 1).blk t).view.emb (ix2 q k)) = V c main_v2 (ix2 Q k)
  have h : ((cfg0.win 1).blk t).view.emb (ix2 q k) = ix2 Q k := by
    funext a; apply Fin.ext
    match a with
    | ⟨0, _⟩ => show win0_1.index t (0 : Fin 2) * 512 + 1 * q.val = Q.val; omega
    | ⟨1, _⟩ => show win0_1.index t (1 : Fin 2) * 3072 + 1 * k.val = k.val; omega
  rw [h]

/-- Row `q` of the input gate's weight block is row `Q` of the weight. -/
theorem input_weight_block (c : Dev nD) (t : Fin cfg0.N) (q : Fin 512) (k : Fin 3072) (Q : Fin 2048)
    (hQ : Q.val = win0_10.index t (1 : Fin 2) * 512 + q.val) :
    iblk0 (F := Ideal) V c 2 t (ix2 q k) = V c main_v3 (ix2 Q k) := by
  obtain ⟨-, ⟨e0, e1⟩, -⟩ := weight_index t
  show V c main_v3 (((cfg0.win 2).blk t).view.emb (ix2 q k)) = V c main_v3 (ix2 Q k)
  have h : ((cfg0.win 2).blk t).view.emb (ix2 q k) = ix2 Q k := by
    funext a; apply Fin.ext
    match a with
    | ⟨0, _⟩ => show win0_2.index t (0 : Fin 2) * 512 + 1 * q.val = Q.val; omega
    | ⟨1, _⟩ => show win0_2.index t (1 : Fin 2) * 3072 + 1 * k.val = k.val; omega
  rw [h]

/-- Row `q` of the candidate's weight block is row `Q` of the weight. -/
theorem cand_weight_block (c : Dev nD) (t : Fin cfg0.N) (q : Fin 512) (k : Fin 3072) (Q : Fin 2048)
    (hQ : Q.val = win0_10.index t (1 : Fin 2) * 512 + q.val) :
    iblk0 (F := Ideal) V c 3 t (ix2 q k) = V c main_v4 (ix2 Q k) := by
  obtain ⟨-, -, ⟨e0, e1⟩, -⟩ := weight_index t
  show V c main_v4 (((cfg0.win 3).blk t).view.emb (ix2 q k)) = V c main_v4 (ix2 Q k)
  have h : ((cfg0.win 3).blk t).view.emb (ix2 q k) = ix2 Q k := by
    funext a; apply Fin.ext
    match a with
    | ⟨0, _⟩ => show win0_3.index t (0 : Fin 2) * 512 + 1 * q.val = Q.val; omega
    | ⟨1, _⟩ => show win0_3.index t (1 : Fin 2) * 3072 + 1 * k.val = k.val; omega
  rw [h]

/-- Row `q` of the output gate's weight block is row `Q` of the weight. -/
theorem out_weight_block (c : Dev nD) (t : Fin cfg0.N) (q : Fin 512) (k : Fin 3072) (Q : Fin 2048)
    (hQ : Q.val = win0_10.index t (1 : Fin 2) * 512 + q.val) :
    iblk0 (F := Ideal) V c 4 t (ix2 q k) = V c main_v5 (ix2 Q k) := by
  obtain ⟨-, -, -, e0, e1⟩ := weight_index t
  show V c main_v5 (((cfg0.win 4).blk t).view.emb (ix2 q k)) = V c main_v5 (ix2 Q k)
  have h : ((cfg0.win 4).blk t).view.emb (ix2 q k) = ix2 Q k := by
    funext a; apply Fin.ext
    match a with
    | ⟨0, _⟩ => show win0_4.index t (0 : Fin 2) * 512 + 1 * q.val = Q.val; omega
    | ⟨1, _⟩ => show win0_4.index t (1 : Fin 2) * 3072 + 1 * k.val = k.val; omega
  rw [h]

/-- Entry `q` of the forget gate's bias block is entry `Q` of the bias row. -/
theorem forget_bias_block (c : Dev nD) (t : Fin cfg0.N) (q : Fin 512) (Q : Fin 2048)
    (hQ : Q.val = win0_10.index t (1 : Fin 2) * 512 + q.val) :
    iblk0 (F := Ideal) V c 5 t (ix2 0 q) = V c main_v7 (ix2 0 Q) := by
  obtain ⟨⟨e0, e1⟩, -⟩ := bias_index t
  show V c main_v7 (((cfg0.win 5).blk t).view.emb (ix2 0 q)) = V c main_v7 (ix2 0 Q)
  have h : ((cfg0.win 5).blk t).view.emb (ix2 0 q) = ix2 0 Q := by
    funext a; apply Fin.ext
    match a with
    | ⟨0, _⟩ => show win0_5.index t (0 : Fin 2) * 1 + 1 * 0 = 0; omega
    | ⟨1, _⟩ => show win0_5.index t (1 : Fin 2) * 512 + 1 * q.val = Q.val; omega
  rw [h]

/-- Entry `q` of the input gate's bias block is entry `Q` of the bias row. -/
theorem input_bias_block (c : Dev nD) (t : Fin cfg0.N) (q : Fin 512) (Q : Fin 2048)
    (hQ : Q.val = win0_10.index t (1 : Fin 2) * 512 + q.val) :
    iblk0 (F := Ideal) V c 6 t (ix2 0 q) = V c main_v8 (ix2 0 Q) := by
  obtain ⟨-, ⟨e0, e1⟩, -⟩ := bias_index t
  show V c main_v8 (((cfg0.win 6).blk t).view.emb (ix2 0 q)) = V c main_v8 (ix2 0 Q)
  have h : ((cfg0.win 6).blk t).view.emb (ix2 0 q) = ix2 0 Q := by
    funext a; apply Fin.ext
    match a with
    | ⟨0, _⟩ => show win0_6.index t (0 : Fin 2) * 1 + 1 * 0 = 0; omega
    | ⟨1, _⟩ => show win0_6.index t (1 : Fin 2) * 512 + 1 * q.val = Q.val; omega
  rw [h]

/-- Entry `q` of the candidate's bias block is entry `Q` of the bias row. -/
theorem cand_bias_block (c : Dev nD) (t : Fin cfg0.N) (q : Fin 512) (Q : Fin 2048)
    (hQ : Q.val = win0_10.index t (1 : Fin 2) * 512 + q.val) :
    iblk0 (F := Ideal) V c 7 t (ix2 0 q) = V c main_v9 (ix2 0 Q) := by
  obtain ⟨-, -, ⟨e0, e1⟩, -⟩ := bias_index t
  show V c main_v9 (((cfg0.win 7).blk t).view.emb (ix2 0 q)) = V c main_v9 (ix2 0 Q)
  have h : ((cfg0.win 7).blk t).view.emb (ix2 0 q) = ix2 0 Q := by
    funext a; apply Fin.ext
    match a with
    | ⟨0, _⟩ => show win0_7.index t (0 : Fin 2) * 1 + 1 * 0 = 0; omega
    | ⟨1, _⟩ => show win0_7.index t (1 : Fin 2) * 512 + 1 * q.val = Q.val; omega
  rw [h]

/-- Entry `q` of the output gate's bias block is entry `Q` of the bias row. -/
theorem out_bias_block (c : Dev nD) (t : Fin cfg0.N) (q : Fin 512) (Q : Fin 2048)
    (hQ : Q.val = win0_10.index t (1 : Fin 2) * 512 + q.val) :
    iblk0 (F := Ideal) V c 8 t (ix2 0 q) = V c main_v10 (ix2 0 Q) := by
  obtain ⟨-, -, -, e0, e1⟩ := bias_index t
  show V c main_v10 (((cfg0.win 8).blk t).view.emb (ix2 0 q)) = V c main_v10 (ix2 0 Q)
  have h : ((cfg0.win 8).blk t).view.emb (ix2 0 q) = ix2 0 Q := by
    funext a; apply Fin.ext
    match a with
    | ⟨0, _⟩ => show win0_8.index t (0 : Fin 2) * 1 + 1 * 0 = 0; omega
    | ⟨1, _⟩ => show win0_8.index t (1 : Fin 2) * 512 + 1 * q.val = Q.val; omega
  rw [h]

/-- Entry `(p, q)` of the old cell state's block is entry `(P, Q)` of the old cell state. -/
theorem state_block (c : Dev nD) (t : Fin cfg0.N) (p : Fin 256) (q : Fin 512) (J : S8192x2048.Idx)
    (h0 : (J 0).val = win0_10.index t (0 : Fin 2) * 256 + p.val)
    (h1 : (J 1).val = win0_10.index t (1 : Fin 2) * 512 + q.val) :
    iblk0 (F := Ideal) V c 9 t (ix2 p q) = V c main_arg2 J := by
  obtain ⟨e0, e1⟩ := state_index t
  show V c main_arg2 (((cfg0.win 9).blk t).view.emb (ix2 p q)) = V c main_arg2 J
  have h : ((cfg0.win 9).blk t).view.emb (ix2 p q) = J := by
    funext a; apply Fin.ext
    match a with
    | ⟨0, _⟩ => show win0_9.index t (0 : Fin 2) * 256 + 1 * p.val = (J 0).val; omega
    | ⟨1, _⟩ => show win0_9.index t (1 : Fin 2) * 512 + 1 * q.val = (J 1).val; omega
  rw [h]

end Cert.KernelIdeal.Cell

end
-- ==== Proof.Region0.lean ====
/-
  Region 0's two results as whole arrays.

  Every grid point writes back block `(i, j)` of each result, and what it writes at `(p, q)` of the block is the
  LSTM cell's value at row `256 i + p` and hidden unit `512 j + q`: the new cell state
  `σ(z_f) · long + σ(z_i) · tanh(z_c)` in the first result, the output gate `σ(z_o)` in the second. The 32 × 4
  blocks tile the [8192, 2048] arrays, so after the region each array holds its function of the entry contents.
-/
import proofs.«110690_j36258113913000_1_alg».proof.Proof.Gen.KernelIdeal.Frame
import proofs.«110690_j36258113913000_1_alg».proof.Proof.Spec
import proofs.«110690_j36258113913000_1_alg».proof.Proof.Region0Pay
import proofs.«110690_j36258113913000_1_alg».proof.Proof.Region0Blocks
import Idealize.ShloMosaic.Lib.Pipeline.Value

set_option maxRecDepth 16384

open scoped BigOperators

noncomputable section

namespace Cert.KernelIdeal.Cell

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ## What a point computes, at its place in the arrays -/

/-- The new cell state a point computes at `(p, q)` of its block is the cell's at the entry `J` of the array
    with `J = (256 i + p, 512 j + q)`. -/
theorem cell_at (c : Dev nD) (t : Fin cfg0.N) (p : Fin 256) (q : Fin 512) (J : S8192x2048.Idx)
    (h0 : (J 0).val = win0_10.index t (0 : Fin 2) * 256 + p.val)
    (h1 : (J 1).val = win0_10.index t (1 : Fin 2) * 512 + q.val) :
    Ideal.logistic (gatePre (iblk0 (F := Ideal) V c 0 t) (iblk0 (F := Ideal) V c 1 t) (iblk0 (F := Ideal) V c 5 t) p q)
        * iblk0 (F := Ideal) V c 9 t (ix2 p q)
      + Ideal.logistic (gatePre (iblk0 (F := Ideal) V c 0 t) (iblk0 (F := Ideal) V c 2 t) (iblk0 (F := Ideal) V c 6 t) p q)
        * Ideal.tanh (gatePre (iblk0 (F := Ideal) V c 0 t) (iblk0 (F := Ideal) V c 3 t) (iblk0 (F := Ideal) V c 7 t) p q)
      = Cert.Lstm.cellState (V c main_v1) (V c main_arg2) (V c main_v2) (Cert.Lstm.rowOf (V c main_v7))
          (V c main_v3) (Cert.Lstm.rowOf (V c main_v8)) (V c main_v4) (Cert.Lstm.rowOf (V c main_v9)) J := by
  have hx := fun k => input_block V c t p k (J 0) h0
  rw [gatePre_eq_affine (V c main_v1) (V c main_v2) (V c main_v7) _ _ _ p q (J 0) (J 1) hx
      (fun k => forget_weight_block V c t q k (J 1) h1) (forget_bias_block V c t q (J 1) h1),
    gatePre_eq_affine (V c main_v1) (V c main_v3) (V c main_v8) _ _ _ p q (J 0) (J 1) hx
      (fun k => input_weight_block V c t q k (J 1) h1) (input_bias_block V c t q (J 1) h1),
    gatePre_eq_affine (V c main_v1) (V c main_v4) (V c main_v9) _ _ _ p q (J 0) (J 1) hx
      (fun k => cand_weight_block V c t q k (J 1) h1) (cand_bias_block V c t q (J 1) h1),
    state_block V c t p q J h0 h1]
  exact congrArg₂ (· + ·) (congrArg₂ (· * ·) rfl (congrArg (V c main_arg2) (eq_ix2 J))) rfl

/-- The output gate a point computes at `(p, q)` of its block is the cell's at the entry `J` of the array. -/
theorem gate_at (c : Dev nD) (t : Fin cfg0.N) (p : Fin 256) (q : Fin 512) (J : S8192x2048.Idx)
    (h0 : (J 0).val = win0_10.index t (0 : Fin 2) * 256 + p.val)
    (h1 : (J 1).val = win0_10.index t (1 : Fin 2) * 512 + q.val) :
    Ideal.logistic (gatePre (iblk0 (F := Ideal) V c 0 t) (iblk0 (F := Ideal) V c 4 t) (iblk0 (F := Ideal) V c 8 t) p q)
      = Cert.Lstm.outGate (V c main_v1) (V c main_v5) (Cert.Lstm.rowOf (V c main_v10)) J := by
  rw [gatePre_eq_affine (V c main_v1) (V c main_v5) (V c main_v10) _ _ _ p q (J 0) (J 1)
      (fun k => input_block V c t p k (J 0) h0)
      (fun k => out_weight_block V c t q k (J 1) h1) (out_bias_block V c t q (J 1) h1)]
  rfl

/-! ## What a point writes back -/

/-- Point `t` writes back block `t` of the new cell state. -/
theorem cell_flushed (c : Dev nD) (t : Fin cfg0.N) :
    (dat0 (F := Ideal) V c).flushed 10 t = ((cfg0.win 10).blk t).view.read (Elt Ideal)
      (Cert.Lstm.cellState (V c main_v1) (V c main_arg2) (V c main_v2) (Cert.Lstm.rowOf (V c main_v7))
        (V c main_v3) (Cert.Lstm.rowOf (V c main_v8)) (V c main_v4) (Cert.Lstm.rowOf (V c main_v9))) := by
  show (cfg0.win 10).cut (grid0.coords t) ((dat0 V c).after 10 t) = _
  rw [after0_10]
  unfold out0_10
  rw [View.canon_unit_zero zero_offsets]
  simp only [View.ld_unit_zero (S := S256x3072) zero_offsets, View.ld_unit_zero (S := S512x3072) zero_offsets,
    View.ld_unit_zero (S := S1x512) zero_offsets, View.ld_unit_zero (S := S256x512) zero_offsets]
  funext y
  obtain ⟨p, q, rfl⟩ : ∃ (p : Fin 256) (q : Fin 512), y = ix2 p q := ⟨y 0, y 1, eq_ix2 y⟩
  refine (cell_apply _ _ _ _ _ _ _ _ p q).trans ?_
  refine cell_at V c t p q (((cfg0.win 10).blk t).view.emb (ix2 p q)) ?_ ?_
  · show win0_10.index t (0 : Fin 2) * 256 + 1 * p.val = _; omega
  · show win0_10.index t (1 : Fin 2) * 512 + 1 * q.val = _; omega

/-- Point `t` writes back block `t` of the output gate. -/
theorem gate_flushed (c : Dev nD) (t : Fin cfg0.N) :
    (dat0 (F := Ideal) V c).flushed 11 t = ((cfg0.win 11).blk t).view.read (Elt Ideal)
      (Cert.Lstm.outGate (V c main_v1) (V c main_v5) (Cert.Lstm.rowOf (V c main_v10))) := by
  show (cfg0.win 11).cut (grid0.coords t) ((dat0 V c).after 11 t) = _
  rw [after0_11]
  unfold out0_11
  rw [View.canon_unit_zero zero_offsets]
  simp only [View.ld_unit_zero (S := S256x3072) zero_offsets, View.ld_unit_zero (S := S512x3072) zero_offsets,
    View.ld_unit_zero (S := S1x512) zero_offsets]
  obtain ⟨e0, e1⟩ := gate_index t
  funext y
  obtain ⟨p, q, rfl⟩ : ∃ (p : Fin 256) (q : Fin 512), y = ix2 p q := ⟨y 0, y 1, eq_ix2 y⟩
  refine (out_apply _ _ _ p q).trans ?_
  refine gate_at V c t p q (((cfg0.win 11).blk t).view.emb (ix2 p q)) ?_ ?_
  · show win0_11.index t (0 : Fin 2) * 256 + 1 * p.val = _; omega
  · show win0_11.index t (1 : Fin 2) * 512 + 1 * q.val = _; omega

/-! ## The blocks tile the arrays -/

/-- An entry of the cell state is in point `t`'s block iff each coordinate is in the block's range on its axis. -/
theorem mem_cell_block (t : Fin cfg0.N) (i : S8192x2048.Idx) :
    i ∈ ((cfg0.win 10).blk t).view.set ↔ ∀ a : Fin 2, win0_10.index t a * S256x512.size a ≤ (i a).val
      ∧ (i a).val < win0_10.index t a * S256x512.size a + S256x512.size a := by
  show i ∈ ((View.whole main_v12_0).slice (win0_10.rect t)).set ↔ _
  rw [View.set_slice_whole, Rect.mem_set_unit]
  exact Iff.rfl

/-- An entry of the output gate is in point `t`'s block iff each coordinate is in the block's range on its axis. -/
theorem mem_gate_block (t : Fin cfg0.N) (i : S8192x2048.Idx) :
    i ∈ ((cfg0.win 11).blk t).view.set ↔ ∀ a : Fin 2, win0_11.index t a * S256x512.size a ≤ (i a).val
      ∧ (i a).val < win0_11.index t a * S256x512.size a + S256x512.size a := by
  show i ∈ ((View.whole main_v12_1).slice (win0_11.rect t)).set ↔ _
  rw [View.set_slice_whole, Rect.mem_set_unit]
  exact Iff.rfl

/-- Every entry of the cell state is in the block of the point whose block is `(row / 256, column / 512)`. -/
theorem cell_cover (i : S8192x2048.Idx) :
    ∃ t : Fin cfg0.N, (cfg0.win 10).flush t = true ∧ i ∈ ((cfg0.win 10).blk t).view.set := by
  have hi0 : (i 0).val < 8192 := (i 0).isLt
  have hi1 : (i 1).val < 2048 := (i 1).isLt
  obtain ⟨t, ht⟩ := cell_index_onto ⟨(i 0).val / 256, by omega⟩ ⟨(i 1).val / 512, by omega⟩
  have q0 : win0_10.index t (0 : Fin 2) = (i 0).val / 256 := congrFun ht 0
  have q1 : win0_10.index t (1 : Fin 2) = (i 1).val / 512 := congrFun ht 1
  refine ⟨t, flush0_10 t, ?_⟩
  rw [mem_cell_block]
  intro a
  match a with
  | ⟨0, _⟩ => show win0_10.index t (0 : Fin 2) * 256 ≤ (i 0).val ∧ (i 0).val < win0_10.index t (0 : Fin 2) * 256 + 256; omega
  | ⟨1, _⟩ => show win0_10.index t (1 : Fin 2) * 512 ≤ (i 1).val ∧ (i 1).val < win0_10.index t (1 : Fin 2) * 512 + 512; omega

/-- Every entry of the output gate is in the block of the point whose block is `(row / 256, column / 512)`. -/
theorem gate_cover (i : S8192x2048.Idx) :
    ∃ t : Fin cfg0.N, (cfg0.win 11).flush t = true ∧ i ∈ ((cfg0.win 11).blk t).view.set := by
  have hi0 : (i 0).val < 8192 := (i 0).isLt
  have hi1 : (i 1).val < 2048 := (i 1).isLt
  obtain ⟨t, ht⟩ := gate_index_onto ⟨(i 0).val / 256, by omega⟩ ⟨(i 1).val / 512, by omega⟩
  have q0 : win0_11.index t (0 : Fin 2) = (i 0).val / 256 := congrFun ht 0
  have q1 : win0_11.index t (1 : Fin 2) = (i 1).val / 512 := congrFun ht 1
  refine ⟨t, flush0_11 t, ?_⟩
  rw [mem_gate_block]
  intro a
  match a with
  | ⟨0, _⟩ => show win0_11.index t (0 : Fin 2) * 256 ≤ (i 0).val ∧ (i 0).val < win0_11.index t (0 : Fin 2) * 256 + 256; omega
  | ⟨1, _⟩ => show win0_11.index t (1 : Fin 2) * 512 ≤ (i 1).val ∧ (i 1).val < win0_11.index t (1 : Fin 2) * 512 + 512; omega

/-! ## The arrays after the region -/

/-- After region 0 the first result holds the new cell state of the entry contents. -/
theorem cellState_arr (c : Dev nD) :
    (dat0 (F := Ideal) V c).arrAt 10 cfg0.N
      = Cert.Lstm.cellState (V c main_v1) (V c main_arg2) (V c main_v2) (Cert.Lstm.rowOf (V c main_v7))
          (V c main_v3) (Cert.Lstm.rowOf (V c main_v8)) (V c main_v4) (Cert.Lstm.rowOf (V c main_v9)) :=
  (dat0 (F := Ideal) V c).arrAt_eq_of_cover 10 _ (fun t _ => cell_flushed V c t) cell_cover

/-- After region 0 the second result holds the output gate of the entry contents. -/
theorem outGate_arr (c : Dev nD) :
    (dat0 (F := Ideal) V c).arrAt 11 cfg0.N
      = Cert.Lstm.outGate (V c main_v1) (V c main_v5) (Cert.Lstm.rowOf (V c main_v10)) :=
  (dat0 (F := Ideal) V c).arrAt_eq_of_cover 11 _ (fun t _ => gate_flushed V c t) gate_cover

end Cert.KernelIdeal.Cell

end
-- ==== Proof.Region1.lean ====
/-
  The second region's output array, as one function of the arrays the region finds.

  The region runs over 32 points. Point `t` reads row block `t` (256 rows of 2048) of the new cell state and of the
  output gate, the whole [2048, 2048] weight and the whole [1, 2048] bias, and stores one [256, 2048] block: at row `p`,
  column `q` the value `tanh (∑ k, cn (p, k) · W (q, k) + b q) · og (p, q)`, the narrowing of the cell state before the
  product being the identity on the extended reals. The weight is contracted along its second axis. Since the output's
  block at point `t` is row block `t` as well, what point `t` writes back is block `t` of the hidden value
  `Cert.Lstm.hidden` of the four arrays; the 32 row blocks cover the [8192, 2048] array (row `r` lies in block
  `r / 256`), so the array ends holding that function.
-/
import proofs.«110690_j36258113913000_1_alg».proof.Proof.Gen.KernelIdeal.Frame
import proofs.«110690_j36258113913000_1_alg».proof.Proof.Spec
import proofs.«110690_j36258113913000_1_alg».proof.Proof.LibDotNT
import Idealize.ShloMosaic.Lib.Pipeline.Value

open scoped BigOperators

noncomputable section

namespace Cert.KernelIdeal.Cell.Hidden
open Idealize.ShloMosaic Idealize.ShloMosaic.TcCoe Idealize.SL.Sem Cert.KernelIdeal Cert.KernelIdeal.Gen
open Idealize.ShloMosaic.ValueIdx

/-! ## The stored payload at an index -/

/-- The stored payload at row `p`, column `q` of a block: the squashed projection of row `p` of the first block
    against row `q` of the weight block, plus the bias at `q`, times the gate block's entry. -/
theorem pay_apply (x0 x1 : Vec Ideal S256x2048 .f32) (x2 : Vec Ideal S2048x2048 .bf16) (x3 : Vec Ideal S1x2048 .f32)
    (p : Fin 256) (q : Fin 2048) :
    k1_pay1 x0 x2 x3 x1 (ix2 p q)
      = Ideal.tanh ((∑ k : Fin 2048, x0 (ix2 p k) * x2 (ix2 q k)) + x3 (ix2 0 q)) * x1 (ix2 p q) := by
  unfold k1_pay1
  simp only [shapeCast_self]
  show Ideal.tanh (matmul dot_S256x2048_S2048x2048_S256x2048_1_1_0_0_n_n none (truncf .bf16 x0 Facts₀.bitsLt_bf16_f32) x2
        (constant (F := Ideal) S256x2048 .f32 0x00000000#32) (ix2 p q)
      + broadcastTo S256x2048 x3 Facts₀.broadcasts_S1x2048_S256x2048 (ix2 p q)) * x1 (ix2 p q) = _
  have hm := DotNT.matmul_zero_apply (φ₁ := .bf16) (φ₂ := .bf16) dot_S256x2048_S2048x2048_S256x2048_1_1_0_0_n_n
    rfl rfl rfl rfl rfl rfl rfl rfl none (truncf .bf16 x0 Facts₀.bitsLt_bf16_f32) x2 p q
  have hb : broadcastTo S256x2048 x3 Facts₀.broadcasts_S1x2048_S256x2048 (ix2 p q) = x3 (ix2 0 q) :=
    broadcastTo_apply x3 _ (ix2 p q) (ix2 0 q) (fun a => by
      match a with
      | ⟨0, _⟩ => rfl
      | ⟨1, _⟩ => rfl)
  rw [hm, hb]
  rfl

/-- The same at any index of the block, by its two coordinates. -/
theorem pay_point (x0 x1 : Vec Ideal S256x2048 .f32) (x2 : Vec Ideal S2048x2048 .bf16) (x3 : Vec Ideal S1x2048 .f32)
    (j : S256x2048.Idx) :
    k1_pay1 x0 x2 x3 x1 j
      = Ideal.tanh ((∑ k : Fin 2048, x0 (ix2 (j 0) k) * x2 (ix2 (j 1) k)) + x3 (ix2 0 (j 1))) * x1 j := by
  obtain ⟨p, q, rfl⟩ : ∃ (p : Fin 256) (q : Fin 2048), j = ix2 p q := ⟨j 0, j 1, eq_ix2 j⟩
  exact pay_apply x0 x1 x2 x3 p q

/-- When the four blocks are the arrays read along row `i 0` (cell state, gate), along row `i 1` of the weight and at
    column `i 1` of the bias, the payload at `j` is the hidden value at `i`. -/
theorem pay_hidden (A0 A1 : Cert.Lstm.Mat 8192 2048) (W : Cert.Lstm.Mat 2048 2048) (b : Cert.Lstm.Mat 1 2048)
    (x0 x1 : Vec Ideal S256x2048 .f32) (x2 : Vec Ideal S2048x2048 .bf16) (x3 : Vec Ideal S1x2048 .f32)
    (j : S256x2048.Idx) (i : S8192x2048.Idx)
    (h0 : ∀ k : Fin 2048, x0 (ix2 (j 0) k) = A0 (ix2 (i 0) k))
    (h1 : x1 j = A1 (ix2 (i 0) (i 1)))
    (h2 : ∀ k : Fin 2048, x2 (ix2 (j 1) k) = W (ix2 (i 1) k))
    (h3 : x3 (ix2 0 (j 1)) = b (ix2 0 (i 1))) :
    k1_pay1 x0 x2 x3 x1 j = Cert.Lstm.hidden A0 A1 W (Cert.Lstm.rowOf b) i := by
  rw [pay_point]
  show _ = Ideal.tanh ((∑ k : Fin 2048, A0 (ix2 (i 0) k) * W (ix2 (i 1) k)) + b (ix2 0 (i 1))) * A1 (ix2 (i 0) (i 1))
  rw [h1, h3, Finset.sum_congr rfl fun k _ => by rw [h0 k, h2 k]]

/-! ## The index maps -/

/-- The printed index maps over the 32 points: the output's block is row block `t`, the two row-blocked inputs move
    with it, and the weight and the bias are read whole at every point. -/
theorem idx_facts : ∀ t : Fin cfg1.N,
    win1_4.index t (0 : Fin 2) = t.val ∧ win1_4.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

variable (V : (c : Dev nD) → (b : Ref sig .tc) → Buf (Elt Ideal) ((c : Thread nD τ).loc b))

/-! ## What a point writes back -/

/-- The offsets of an access that starts at the block's origin. -/
theorem origin_zero : (![0, 0] : Fin 2 → Nat) = fun _ => 0 := funext fun a => by fin_cases a <;> rfl

/-- What point `t` writes back is block `t` of the hidden value of the arrays as the region finds them: each input block
    is its array read through the rectangle the output's block names (a block's coordinate on an axis is the block
    index times the block's extent plus the coordinate inside the block). -/
theorem flushed_eq (c : Dev nD) (t : Fin cfg1.N) :
    (dat1 (F := Ideal) V c).flushed 4 t
      = ((cfg1.win 4).blk t).view.read (Elt Ideal)
          (Cert.Lstm.hidden (V c main_v12_0) (V c main_v12_1) (V c main_v6) (Cert.Lstm.rowOf (V c main_v11))) := by
  show (cfg1.win 4).cut (grid1.coords t) ((dat1 V c).after 4 t) = _
  rw [after1_4]
  unfold out1_4
  rw [View.canon_unit_zero origin_zero]
  simp only [View.ld_unit_zero (S := S256x2048) origin_zero, View.ld_unit_zero (S := S2048x2048) origin_zero,
    View.ld_unit_zero (S := S1x2048) origin_zero]
  obtain ⟨e40, e41, e00, e01, e10, e11, e20, e21, e30, e31⟩ := idx_facts t
  refine funext fun (j : S256x2048.Idx) => ?_
  refine pay_hidden _ _ _ _ _ _ _ _ j (((cfg1.win 4).blk t).view.emb j) (fun k => ?_) ?_ (fun k => ?_) ?_
  · show V c main_v12_0 (((cfg1.win 0).blk t).view.emb (ix2 (j 0) k))
      = V c main_v12_0 (ix2 ((((cfg1.win 4).blk t).view.emb j) 0) k)
    refine congrArg (V c main_v12_0) (funext fun a => Fin.ext ?_)
    match a with
    | ⟨0, _⟩ => show win1_0.index t (0 : Fin 2) * 256 + 1 * (j 0).val = win1_4.index t (0 : Fin 2) * 256 + 1 * (j 0).val; omega
    | ⟨1, _⟩ => show win1_0.index t (1 : Fin 2) * 2048 + 1 * k.val = k.val; omega
  · show V c main_v12_1 (((cfg1.win 1).blk t).view.emb j)
      = V c main_v12_1 (ix2 ((((cfg1.win 4).blk t).view.emb j) 0) ((((cfg1.win 4).blk t).view.emb j) 1))
    refine congrArg (V c main_v12_1) (funext fun a => Fin.ext ?_)
    match a with
    | ⟨0, _⟩ => show win1_1.index t (0 : Fin 2) * 256 + 1 * (j 0).val = win1_4.index t (0 : Fin 2) * 256 + 1 * (j 0).val; omega
    | ⟨1, _⟩ => show win1_1.index t (1 : Fin 2) * 2048 + 1 * (j 1).val = win1_4.index t (1 : Fin 2) * 2048 + 1 * (j 1).val; omega
  · show V c main_v6 (((cfg1.win 2).blk t).view.emb (ix2 (j 1) k))
      = V c main_v6 (ix2 ((((cfg1.win 4).blk t).view.emb j) 1) k)
    refine congrArg (V c main_v6) (funext fun a => Fin.ext ?_)
    match a with
    | ⟨0, _⟩ => show win1_2.index t (0 : Fin 2) * 2048 + 1 * (j 1).val = win1_4.index t (1 : Fin 2) * 2048 + 1 * (j 1).val; omega
    | ⟨1, _⟩ => show win1_2.index t (1 : Fin 2) * 2048 + 1 * k.val = k.val; omega
  · show V c main_v11 (((cfg1.win 3).blk t).view.emb (ix2 0 (j 1)))
      = V c main_v11 (ix2 0 ((((cfg1.win 4).blk t).view.emb j) 1))
    refine congrArg (V c main_v11) (funext fun a => Fin.ext ?_)
    match a with
    | ⟨0, _⟩ => show win1_3.index t (0 : Fin 2) * 1 + 1 * 0 = 0; omega
    | ⟨1, _⟩ => show win1_3.index t (1 : Fin 2) * 2048 + 1 * (j 1).val = win1_4.index t (1 : Fin 2) * 2048 + 1 * (j 1).val; omega

/-! ## The blocks cover the array -/

/-- An index of the array is in point `t`'s block iff each coordinate is in the block's range on its axis. -/
theorem mem_blk (t : Fin cfg1.N) (i : S8192x2048.Idx) :
    i ∈ ((cfg1.win 4).blk t).view.set ↔ ∀ a : Fin 2, win1_4.index t a * S256x2048.size a ≤ (i a).val
      ∧ (i a).val < win1_4.index t a * S256x2048.size a + S256x2048.size a := by
  show i ∈ ((View.whole main_v13).slice (win1_4.rect t)).set ↔ _
  rw [View.set_slice_whole, Rect.mem_set_unit]
  exact Iff.rfl

/-- Every index of the array lies in the block of the point its row falls in: row `r` belongs to point `r / 256`. -/
theorem cover (i : S8192x2048.Idx) :
    ∃ t : Fin cfg1.N, (cfg1.win 4).flush t = true ∧ i ∈ ((cfg1.win 4).blk t).view.set := by
  have hN : cfg1.N = 32 := N_1
  have hi0 : (i 0).val < 8192 := (i 0).isLt
  have hi1 : (i 1).val < 2048 := (i 1).isLt
  obtain ⟨t, ht⟩ : ∃ t : Fin cfg1.N, t.val = (i 0).val / 256 := ⟨⟨(i 0).val / 256, by rw [hN]; omega⟩, rfl⟩
  obtain ⟨e40, e41, -⟩ := idx_facts t
  refine ⟨t, flush1_4 t, ?_⟩
  rw [mem_blk]
  intro a
  match a with
  | ⟨0, _⟩ =>
    show win1_4.index t (0 : Fin 2) * 256 ≤ (i 0).val ∧ (i 0).val < win1_4.index t (0 : Fin 2) * 256 + 256
    omega
  | ⟨1, _⟩ =>
    show win1_4.index t (1 : Fin 2) * 2048 ≤ (i 1).val ∧ (i 1).val < win1_4.index t (1 : Fin 2) * 2048 + 2048
    omega

end Cert.KernelIdeal.Cell.Hidden

namespace Cert.KernelIdeal.Cell
open Idealize.ShloMosaic Idealize.ShloMosaic.TcCoe Idealize.SL.Sem Cert.KernelIdeal Cert.KernelIdeal.Gen

variable (V : (c : Dev nD) → (b : Ref sig .tc) → Buf (Elt Ideal) ((c : Thread nD τ).loc b))

/-- After the region's 32 points the output array holds the hidden value of the arrays the region found: every point
    writes its block of that one function, and the blocks cover the array. -/
theorem hidden_arr (c : Dev nD) :
    (dat1 (F := Ideal) V c).arrAt 4 cfg1.N
      = Cert.Lstm.hidden (V c main_v12_0) (V c main_v12_1) (V c main_v6) (Cert.Lstm.rowOf (V c main_v11)) :=
  (dat1 (F := Ideal) V c).arrAt_eq_of_cover 4 _ (fun t _ => Hidden.flushed_eq V c t) Hidden.cover

end Cert.KernelIdeal.Cell

end
-- ==== Proof.HostSide.lean ====
/-
  What the first region finds in its arrays, as terms of the launch memory.

  Before the first region @main concatenates the input and the short-term state row by row, truncates that
  and the five weights to bf16 (the identity on the extended reals), and reshapes each bias `[2048]` to one
  row `[1, 2048]`. No operation touches the long-term state.
-/
import proofs.«110690_j36258113913000_1_alg».proof.Proof.Gen.KernelIdeal.Frame
import proofs.«110690_j36258113913000_1_alg».proof.Proof.Spec
import Idealize.ShloMosaic.Lib.Pipeline.Value
import Idealize.ShloMosaic.Lib.StableHlo.Run

noncomputable section

namespace Cert.KernelIdeal.Host

open Idealize.ShloMosaic Idealize.ShloMosaic.TcCoe Idealize.ShloMosaic.ValueIdx Idealize.SL.Sem
open Cert.KernelIdeal Cert.KernelIdeal.Gen Idealize.ShloMosaic.StableHlo

variable (m : (ℓ : Loc nD τ sig) → Buf (Elt Ideal) ℓ) (ρ : Dev nD → PrngReg)

/-- A vector reshaped to one row, read back as a vector, is itself: entry `q` of the row is entry `q`. -/
theorem row_reshape (b : S2048.Idx → EReal) (i : S2048.Idx) :
    shapeCast S1x2048 b shapeCasts_S2048_S1x2048 (ix2 0 (i 0)) = b i :=
  shapeCast_apply b shapeCasts_S2048_S1x2048 (ix2 0 (i 0)) i (by
    rw [Shape.rowMajor_val_one, Shape.rowMajor_val_two]; simp)

/-- The input and the short-term state side by side, as both programs build it. -/
abbrev combined (c : Dev nD) : S8192x3072.Idx → EReal :=
  concatenate S8192x3072 1 [⟨S8192x1024, m ((c : Thread nD τ).loc main_arg0)⟩, ⟨S8192x2048, m ((c : Thread nD τ).loc main_arg1)⟩]
    concatenates_S8192x1024_S8192x2048_S8192x3072_d1

/-- The first region's first array is the combined input (truncated: the identity here). -/
theorem V1_main_v1 (c : Dev nD) : (V1 m ρ c main_v1 : S8192x3072.Idx → EReal) = combined m c := by
  dsimp only [V1, W1, hostOps0]; after_results; rfl

/-- The gate weight as the kernel is handed it: its truncation, the identity on the extended reals. -/
theorem V1_main_v2 (c : Dev nD) : (V1 m ρ c main_v2 : S2048x3072.Idx → EReal) = m ((c : Thread nD τ).loc main_arg3) := by
  dsimp only [V1, W1, hostOps0]; after_results; rfl
/-- The gate weight as the kernel is handed it: its truncation, the identity on the extended reals. -/
theorem V1_main_v3 (c : Dev nD) : (V1 m ρ c main_v3 : S2048x3072.Idx → EReal) = m ((c : Thread nD τ).loc main_arg5) := by
  dsimp only [V1, W1, hostOps0]; after_results; rfl
/-- The gate weight as the kernel is handed it: its truncation, the identity on the extended reals. -/
theorem V1_main_v4 (c : Dev nD) : (V1 m ρ c main_v4 : S2048x3072.Idx → EReal) = m ((c : Thread nD τ).loc main_arg7) := by
  dsimp only [V1, W1, hostOps0]; after_results; rfl
/-- The gate weight as the kernel is handed it: its truncation, the identity on the extended reals. -/
theorem V1_main_v5 (c : Dev nD) : (V1 m ρ c main_v5 : S2048x3072.Idx → EReal) = m ((c : Thread nD τ).loc main_arg9) := by
  dsimp only [V1, W1, hostOps0]; after_results; rfl
/-- The gate weight as the kernel is handed it: its truncation, the identity on the extended reals. -/
theorem V1_main_v6 (c : Dev nD) : (V1 m ρ c main_v6 : S2048x2048.Idx → EReal) = m ((c : Thread nD τ).loc main_arg11) := by
  dsimp only [V1, W1, hostOps0]; after_results; rfl

/-- The bias as the kernel is handed it, a one-row matrix, read as a vector: the argument itself. -/
theorem V1_main_v7 (c : Dev nD) : Cert.Lstm.rowOf (V1 m ρ c main_v7 : S1x2048.Idx → EReal) = m ((c : Thread nD τ).loc main_arg4) := by
  dsimp only [V1, W1, hostOps0]; after_results
  funext i
  exact row_reshape (m ((c : Thread nD τ).loc main_arg4)) i
/-- The bias as the kernel is handed it, a one-row matrix, read as a vector: the argument itself. -/
theorem V1_main_v8 (c : Dev nD) : Cert.Lstm.rowOf (V1 m ρ c main_v8 : S1x2048.Idx → EReal) = m ((c : Thread nD τ).loc main_arg6) := by
  dsimp only [V1, W1, hostOps0]; after_results
  funext i
  exact row_reshape (m ((c : Thread nD τ).loc main_arg6)) i
/-- The bias as the kernel is handed it, a one-row matrix, read as a vector: the argument itself. -/
theorem V1_main_v9 (c : Dev nD) : Cert.Lstm.rowOf (V1 m ρ c main_v9 : S1x2048.Idx → EReal) = m ((c : Thread nD τ).loc main_arg8) := by
  dsimp only [V1, W1, hostOps0]; after_results
  funext i
  exact row_reshape (m ((c : Thread nD τ).loc main_arg8)) i
/-- The bias as the kernel is handed it, a one-row matrix, read as a vector: the argument itself. -/
theorem V1_main_v10 (c : Dev nD) : Cert.Lstm.rowOf (V1 m ρ c main_v10 : S1x2048.Idx → EReal) = m ((c : Thread nD τ).loc main_arg10) := by
  dsimp only [V1, W1, hostOps0]; after_results
  funext i
  exact row_reshape (m ((c : Thread nD τ).loc main_arg10)) i
/-- The bias as the kernel is handed it, a one-row matrix, read as a vector: the argument itself. -/
theorem V1_main_v11 (c : Dev nD) : Cert.Lstm.rowOf (V1 m ρ c main_v11 : S1x2048.Idx → EReal) = m ((c : Thread nD τ).loc main_arg12) := by
  dsimp only [V1, W1, hostOps0]; after_results
  funext i
  exact row_reshape (m ((c : Thread nD τ).loc main_arg12)) i

/-- No host operation writes the long-term state. -/
theorem V1_main_arg2 (c : Dev nD) : (V1 m ρ c main_arg2 : S8192x2048.Idx → EReal) = m ((c : Thread nD τ).loc main_arg2) := by
  dsimp only [V1, W1, hostOps0]; after_results

end Cert.KernelIdeal.Host

end
-- ==== Proof.KernelValue.lean ====
/-
  The idealized kernel's two results as functions of the arguments.

  The new cell state is the first region's first output array: the second region only reads it (through an input
  window), so the last boundary still holds what the first region wrote. The hidden value is the second region's
  output array, computed from the first region's two outputs, the projection weight (truncated: the identity
  here) and its bias row. With the host side read (what the first region finds in its arrays), both are the
  specification's functions of the launch memory.
-/
import proofs.«110690_j36258113913000_1_alg».proof.Proof.Region0
import proofs.«110690_j36258113913000_1_alg».proof.Proof.Region1
import proofs.«110690_j36258113913000_1_alg».proof.Proof.HostSide

noncomputable section

namespace Cert.KernelIdeal.Cell

open Idealize.ShloMosaic Idealize.ShloMosaic.TcCoe Idealize.SL.Sem
open Cert.KernelIdeal Cert.KernelIdeal.Gen Cert.KernelIdeal.Host

variable (m : (ℓ : Loc nD τ sig) → Buf (Elt Ideal) ℓ) (ρ : Dev nD → PrngReg)

/-- The new cell state as a function of the launch memory. -/
abbrev cellOf (c : Dev nD) : S8192x2048.Idx → EReal :=
  Cert.Lstm.cellState (combined m c) (m ((c : Thread nD τ).loc main_arg2))
    (m ((c : Thread nD τ).loc main_arg3)) (m ((c : Thread nD τ).loc main_arg4))
    (m ((c : Thread nD τ).loc main_arg5)) (m ((c : Thread nD τ).loc main_arg6))
    (m ((c : Thread nD τ).loc main_arg7)) (m ((c : Thread nD τ).loc main_arg8))

/-- The output gate as a function of the launch memory. -/
abbrev gateOf (c : Dev nD) : S8192x2048.Idx → EReal :=
  Cert.Lstm.outGate (combined m c) (m ((c : Thread nD τ).loc main_arg9)) (m ((c : Thread nD τ).loc main_arg10))

/-- What the first region leaves in its first output array. -/
theorem cell_at_exit0 (c : Dev nD) : (V2 m ρ c main_v12_0 : S8192x2048.Idx → EReal) = cellOf m c := by
  refine (W2_arr m ρ c 10).trans ?_
  rw [cellState_arr (V1 m ρ) c, V1_main_v1, V1_main_arg2, V1_main_v2, V1_main_v7, V1_main_v3, V1_main_v8, V1_main_v4,
    V1_main_v9]

/-- What the first region leaves in its second output array. -/
theorem gate_at_exit0 (c : Dev nD) : (V2 m ρ c main_v12_1 : S8192x2048.Idx → EReal) = gateOf m c := by
  refine (W2_arr m ρ c 11).trans ?_
  rw [outGate_arr (V1 m ρ) c, V1_main_v1, V1_main_v5, V1_main_v10]

/-- The projection weight reaches the second region untouched by the first. -/
theorem proj_at_exit0 (c : Dev nD) : (V2 m ρ c main_v6 : S2048x2048.Idx → EReal) = m ((c : Thread nD τ).loc main_arg11) :=
  (W2_of_ne m ρ c main_v6 (by decide)).trans (V1_main_v6 m ρ c)

/-- So does its bias row. -/
theorem projBias_at_exit0 (c : Dev nD) :
    Cert.Lstm.rowOf (V2 m ρ c main_v11 : S1x2048.Idx → EReal) = m ((c : Thread nD τ).loc main_arg12) := by
  rw [show (V2 m ρ c main_v11 : S1x2048.Idx → EReal) = V1 m ρ c main_v11 from W2_of_ne m ρ c main_v11 (by decide)]
  exact V1_main_v11 m ρ c

/-- THE NEW CELL STATE at the end of the run. -/
theorem cell_value (c : Dev nD) : (W3 m ρ c (Proc.devRef .tc main_v12_0) : S8192x2048.Idx → EReal) = cellOf m c :=
  calc (W3 m ρ c (Proc.devRef .tc main_v12_0) : S8192x2048.Idx → EReal)
    _ = (dat1 (V2 m ρ) c).arrAt 0 cfg1.N := W3_arr m ρ c 0
    _ = V2 m ρ c main_v12_0 := ((dat1 (V2 m ρ) c).arrAt_in 0 rfl _).trans (A_eq1 (V2 m ρ) c 0)
    _ = cellOf m c := cell_at_exit0 m ρ c

/-- THE HIDDEN VALUE at the end of the run. -/
theorem hidden_value (c : Dev nD) : (W3 m ρ c (Proc.devRef .tc main_v13) : S8192x2048.Idx → EReal)
    = Cert.Lstm.hidden (cellOf m c) (gateOf m c) (m ((c : Thread nD τ).loc main_arg11)) (m ((c : Thread nD τ).loc main_arg12)) := by
  refine (W3_arr m ρ c 4).trans ?_
  rw [hidden_arr (V2 m ρ) c, cell_at_exit0, gate_at_exit0, proj_at_exit0, projBias_at_exit0]

end Cert.KernelIdeal.Cell

end
-- ==== Proof.RefCell.lean ====
/-
  The reference program computes the LSTM cell of `Cert.Lstm`.

  The reference fuses the four gate layers into one product: with `W_all` the four weights stacked along the
  row axis and `b_all` the four biases laid end to end, entry `(p, c)` of `cb · W_allᵀ + b_all` is
  `∑ k, cb (p, k) · W_all (c, k) + b_all c`. Row `2048·g + q` of `W_all` is row `q` of the `g`-th weight and entry
  `2048·g + q` of `b_all` is entry `q` of the `g`-th bias, so the `g`-th column slice of the fused product, at
  `(p, q)`, is the `g`-th gate's own linear layer `affine cb W_g b_g p q`. The sigmoid is spelt
  `1 / (1 + e^(-z))` with the constant one given by its bit pattern; that pattern is the real number one, and
  the expression is the logistic function by definition. The rest is reading each elementwise operation at an
  index: no algebraic law is used, only the commutation of index reads with the operations.
-/
import proofs.«110690_j36258113913000_1_alg».proof.Proof.Gen.ReferenceIdeal.Read
import proofs.«110690_j36258113913000_1_alg».proof.Proof.Spec

open scoped BigOperators

noncomputable section

namespace Cert.ReferenceIdeal.Cell

open Idealize.ShloMosaic Idealize.ShloMosaic.ValueIdx Cert.ReferenceIdeal Cert.ReferenceIdeal.Gen Cert.ReferenceIdeal.Read

/-- The single-precision bit pattern `0x3F800000` is the real number one. -/
theorem ofBits_one : Ideal.ofBits .f32 0x3F800000#32 = (1 : EReal) := by
  simp [Ideal.ofBits, Ideal.ieee, -EReal.coe_mul]; norm_num

/-- The host's spelling of the sigmoid, `1 / (1 + e^(-z))` with the ones as bit patterns, is the logistic function. -/
theorem host_sigmoid (z : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf z)))
      = Ideal.logistic z := by
  simp only [Ideal.hostDivf_def, Ideal.addf_def, Ideal.hostUnary_exp_def, Ideal.hostNegf_def, Ideal.negf_def,
    Ideal.ofBits_def, ofBits_one]
  rfl

/-- Row `0 + q` of the stacked weight is row `q` of the forget layer's weight. -/
theorem wall_0 (x3 x5 x7 x9 : (⟨S2048x3072, .f32⟩ : BufTy).Contents (Elt Ideal)) (q : Fin 2048) (c : Fin 8192)
    (k : Fin 3072) (hc : c.val = 0 + q.val) :
    val_main_v1 (F := Ideal) x3 x5 x7 x9 (ix2 c k) = x3 (ix2 q k) := by
  unfold val_main_v1
  exact concatenate_apply_piece (t := S8192x3072) 0
    [⟨S2048x3072, x3⟩, ⟨S2048x3072, x5⟩, ⟨S2048x3072, x7⟩, ⟨S2048x3072, x9⟩]
    concatenates_S2048x3072_S2048x3072_S2048x3072_S2048x3072_S8192x3072_d0
    (ix2 c k) 0 (by simp) S2048x3072 x3 rfl rfl 0 rfl (ix2 q k)
    (fun b hb => match b with
      | ⟨0, _⟩ => absurd rfl hb
      | ⟨1, _⟩ => rfl)
    (by show 0 + q.val = c.val; omega)

/-- Row `2048 + q` of the stacked weight is row `q` of the input layer's weight. -/
theorem wall_1 (x3 x5 x7 x9 : (⟨S2048x3072, .f32⟩ : BufTy).Contents (Elt Ideal)) (q : Fin 2048) (c : Fin 8192)
    (k : Fin 3072) (hc : c.val = 2048 + q.val) :
    val_main_v1 (F := Ideal) x3 x5 x7 x9 (ix2 c k) = x5 (ix2 q k) := by
  unfold val_main_v1
  exact concatenate_apply_piece (t := S8192x3072) 0
    [⟨S2048x3072, x3⟩, ⟨S2048x3072, x5⟩, ⟨S2048x3072, x7⟩, ⟨S2048x3072, x9⟩]
    concatenates_S2048x3072_S2048x3072_S2048x3072_S2048x3072_S8192x3072_d0
    (ix2 c k) 1 (by simp) S2048x3072 x5 rfl rfl 2048 rfl (ix2 q k)
    (fun b hb => match b with
      | ⟨0, _⟩ => absurd rfl hb
      | ⟨1, _⟩ => rfl)
    (by show 2048 + q.val = c.val; omega)

/-- Row `4096 + q` of the stacked weight is row `q` of the candidate layer's weight. -/
theorem wall_2 (x3 x5 x7 x9 : (⟨S2048x3072, .f32⟩ : BufTy).Contents (Elt Ideal)) (q : Fin 2048) (c : Fin 8192)
    (k : Fin 3072) (hc : c.val = 4096 + q.val) :
    val_main_v1 (F := Ideal) x3 x5 x7 x9 (ix2 c k) = x7 (ix2 q k) := by
  unfold val_main_v1
  exact concatenate_apply_piece (t := S8192x3072) 0
    [⟨S2048x3072, x3⟩, ⟨S2048x3072, x5⟩, ⟨S2048x3072, x7⟩, ⟨S2048x3072, x9⟩]
    concatenates_S2048x3072_S2048x3072_S2048x3072_S2048x3072_S8192x3072_d0
    (ix2 c k) 2 (by simp) S2048x3072 x7 rfl rfl 4096 rfl (ix2 q k)
    (fun b hb => match b with
      | ⟨0, _⟩ => absurd rfl hb
      | ⟨1, _⟩ => rfl)
    (by show 4096 + q.val = c.val; omega)

/-- Row `6144 + q` of the stacked weight is row `q` of the output layer's weight. -/
theorem wall_3 (x3 x5 x7 x9 : (⟨S2048x3072, .f32⟩ : BufTy).Contents (Elt Ideal)) (q : Fin 2048) (c : Fin 8192)
    (k : Fin 3072) (hc : c.val = 6144 + q.val) :
    val_main_v1 (F := Ideal) x3 x5 x7 x9 (ix2 c k) = x9 (ix2 q k) := by
  unfold val_main_v1
  exact concatenate_apply_piece (t := S8192x3072) 0
    [⟨S2048x3072, x3⟩, ⟨S2048x3072, x5⟩, ⟨S2048x3072, x7⟩, ⟨S2048x3072, x9⟩]
    concatenates_S2048x3072_S2048x3072_S2048x3072_S2048x3072_S8192x3072_d0
    (ix2 c k) 3 (by simp) S2048x3072 x9 rfl rfl 6144 rfl (ix2 q k)
    (fun b hb => match b with
      | ⟨0, _⟩ => absurd rfl hb
      | ⟨1, _⟩ => rfl)
    (by show 6144 + q.val = c.val; omega)

/-- Entry `0 + q` of the stacked bias is entry `q` of the forget layer's bias. -/
theorem ball_0 (x4 x6 x8 x10 : (⟨S2048, .f32⟩ : BufTy).Contents (Elt Ideal)) (q : Fin 2048) (c : Fin 8192)
    (hc : c.val = 0 + q.val) :
    val_main_v2 (F := Ideal) x4 x6 x8 x10 (ix1 c) = x4 (ix1 q) := by
  unfold val_main_v2
  exact concatenate_apply_piece (t := S8192) 0 [⟨S2048, x4⟩, ⟨S2048, x6⟩, ⟨S2048, x8⟩, ⟨S2048, x10⟩]
    concatenates_S2048_S2048_S2048_S2048_S8192_d0
    (ix1 c) 0 (by simp) S2048 x4 rfl rfl 0 rfl (ix1 q)
    (fun b hb => match b with
      | ⟨0, _⟩ => absurd rfl hb)
    (by show 0 + q.val = c.val; omega)

/-- Entry `2048 + q` of the stacked bias is entry `q` of the input layer's bias. -/
theorem ball_1 (x4 x6 x8 x10 : (⟨S2048, .f32⟩ : BufTy).Contents (Elt Ideal)) (q : Fin 2048) (c : Fin 8192)
    (hc : c.val = 2048 + q.val) :
    val_main_v2 (F := Ideal) x4 x6 x8 x10 (ix1 c) = x6 (ix1 q) := by
  unfold val_main_v2
  exact concatenate_apply_piece (t := S8192) 0 [⟨S2048, x4⟩, ⟨S2048, x6⟩, ⟨S2048, x8⟩, ⟨S2048, x10⟩]
    concatenates_S2048_S2048_S2048_S2048_S8192_d0
    (ix1 c) 1 (by simp) S2048 x6 rfl rfl 2048 rfl (ix1 q)
    (fun b hb => match b with
      | ⟨0, _⟩ => absurd rfl hb)
    (by show 2048 + q.val = c.val; omega)

/-- Entry `4096 + q` of the stacked bias is entry `q` of the candidate layer's bias. -/
theorem ball_2 (x4 x6 x8 x10 : (⟨S2048, .f32⟩ : BufTy).Contents (Elt Ideal)) (q : Fin 2048) (c : Fin 8192)
    (hc : c.val = 4096 + q.val) :
    val_main_v2 (F := Ideal) x4 x6 x8 x10 (ix1 c) = x8 (ix1 q) := by
  unfold val_main_v2
  exact concatenate_apply_piece (t := S8192) 0 [⟨S2048, x4⟩, ⟨S2048, x6⟩, ⟨S2048, x8⟩, ⟨S2048, x10⟩]
    concatenates_S2048_S2048_S2048_S2048_S8192_d0
    (ix1 c) 2 (by simp) S2048 x8 rfl rfl 4096 rfl (ix1 q)
    (fun b hb => match b with
      | ⟨0, _⟩ => absurd rfl hb)
    (by show 4096 + q.val = c.val; omega)

/-- Entry `6144 + q` of the stacked bias is entry `q` of the output layer's bias. -/
theorem ball_3 (x4 x6 x8 x10 : (⟨S2048, .f32⟩ : BufTy).Contents (Elt Ideal)) (q : Fin 2048) (c : Fin 8192)
    (hc : c.val = 6144 + q.val) :
    val_main_v2 (F := Ideal) x4 x6 x8 x10 (ix1 c) = x10 (ix1 q) := by
  unfold val_main_v2
  exact concatenate_apply_piece (t := S8192) 0 [⟨S2048, x4⟩, ⟨S2048, x6⟩, ⟨S2048, x8⟩, ⟨S2048, x10⟩]
    concatenates_S2048_S2048_S2048_S2048_S8192_d0
    (ix1 c) 3 (by simp) S2048 x10 rfl rfl 6144 rfl (ix1 q)
    (fun b hb => match b with
      | ⟨0, _⟩ => absurd rfl hb)
    (by show 6144 + q.val = c.val; omega)

/-- An entry of the fused layer `cb · W_allᵀ + b_all` in a column `off + q` whose weight row and bias entry are
    row `q` of `W` and entry `q` of `b` is the linear layer of `W` and `b` at `(p, q)`. -/
theorem preact (x0 : (⟨S8192x1024, .f32⟩ : BufTy).Contents (Elt Ideal)) (x1 : (⟨S8192x2048, .f32⟩ : BufTy).Contents (Elt Ideal))
    (x3 : (⟨S2048x3072, .f32⟩ : BufTy).Contents (Elt Ideal)) (x4 : (⟨S2048, .f32⟩ : BufTy).Contents (Elt Ideal))
    (x5 : (⟨S2048x3072, .f32⟩ : BufTy).Contents (Elt Ideal)) (x6 : (⟨S2048, .f32⟩ : BufTy).Contents (Elt Ideal))
    (x7 : (⟨S2048x3072, .f32⟩ : BufTy).Contents (Elt Ideal)) (x8 : (⟨S2048, .f32⟩ : BufTy).Contents (Elt Ideal))
    (x9 : (⟨S2048x3072, .f32⟩ : BufTy).Contents (Elt Ideal)) (x10 : (⟨S2048, .f32⟩ : BufTy).Contents (Elt Ideal))
    (W : (⟨S2048x3072, .f32⟩ : BufTy).Contents (Elt Ideal)) (b : (⟨S2048, .f32⟩ : BufTy).Contents (Elt Ideal)) (off : Nat)
    (hW : ∀ (q : Fin 2048) (c : Fin 8192) (k : Fin 3072), c.val = off + q.val →
      val_main_v1 (F := Ideal) x3 x5 x7 x9 (ix2 c k) = W (ix2 q k))
    (hb : ∀ (q : Fin 2048) (c : Fin 8192), c.val = off + q.val →
      val_main_v2 (F := Ideal) x4 x6 x8 x10 (ix1 c) = b (ix1 q))
    (p : Fin 8192) (q : Fin 2048) (c : Fin 8192) (hc : c.val = off + q.val) :
    val_main_v7 (F := Ideal) x0 x1 x3 x4 x5 x6 x7 x8 x9 x10 (ix2 p c)
      = Cert.Lstm.affine (val_main_v0 (F := Ideal) x0 x1) W b p q := by
  have e5 : idx_main_v5 (idx_main_v6 (ix2 p c)) = ix1 c :=
    funext fun a => Fin.ext (by match a with | ⟨0, _⟩ => rfl)
  rw [val_main_v7_apply, val_main_v4_apply, val_main_v6_apply, val_main_v5_apply, e5, hb q c hc]
  unfold Cert.Lstm.affine
  rw [Ideal.addf_def]
  congr 1
  refine Finset.sum_congr rfl fun k _ => ?_
  have el : lidx_main_v4 (ix2 p c) k = ix2 p k :=
    funext fun a => Fin.ext (by match a with | ⟨0, _⟩ => rfl | ⟨1, _⟩ => rfl)
  have er : idx_main_v3 (ridx_main_v4 (ix2 p c) k) = ix2 c k :=
    funext fun a => Fin.ext (by match a with | ⟨0, _⟩ => rfl | ⟨1, _⟩ => rfl)
  rw [val_main_v3_apply, el, er, hW q c k hc]

/-- The forget gate's slice of the fused layer (columns from 0) is that gate's own linear layer. -/
theorem pre_0 (x0 : (⟨S8192x1024, .f32⟩ : BufTy).Contents (Elt Ideal)) (x1 : (⟨S8192x2048, .f32⟩ : BufTy).Contents (Elt Ideal))
    (x3 : (⟨S2048x3072, .f32⟩ : BufTy).Contents (Elt Ideal)) (x4 : (⟨S2048, .f32⟩ : BufTy).Contents (Elt Ideal))
    (x5 : (⟨S2048x3072, .f32⟩ : BufTy).Contents (Elt Ideal)) (x6 : (⟨S2048, .f32⟩ : BufTy).Contents (Elt Ideal))
    (x7 : (⟨S2048x3072, .f32⟩ : BufTy).Contents (Elt Ideal)) (x8 : (⟨S2048, .f32⟩ : BufTy).Contents (Elt Ideal))
    (x9 : (⟨S2048x3072, .f32⟩ : BufTy).Contents (Elt Ideal)) (x10 : (⟨S2048, .f32⟩ : BufTy).Contents (Elt Ideal)) (p : Fin 8192) (q : Fin 2048) :
    val_main_v8 (F := Ideal) x0 x1 x3 x4 x5 x6 x7 x8 x9 x10 (ix2 p q)
      = Cert.Lstm.affine (val_main_v0 (F := Ideal) x0 x1) x3 x4 p q := by
  have e : idx_main_v8 (ix2 p q) = ix2 p (⟨q.val, by have := q.isLt; omega⟩ : Fin 8192) :=
    funext fun a => Fin.ext (by match a with | ⟨0, _⟩ => rfl | ⟨1, _⟩ => rfl)
  rw [val_main_v8_apply, e]
  exact preact x0 x1 x3 x4 x5 x6 x7 x8 x9 x10 x3 x4 0
    (fun q c k hc => wall_0 x3 x5 x7 x9 q c k hc) (fun q c hc => ball_0 x4 x6 x8 x10 q c hc) p q _ (Nat.zero_add _).symm

/-- The input gate's slice of the fused layer (columns from 2048) is that gate's own linear layer. -/
theorem pre_1 (x0 : (⟨S8192x1024, .f32⟩ : BufTy).Contents (Elt Ideal)) (x1 : (⟨S8192x2048, .f32⟩ : BufTy).Contents (Elt Ideal))
    (x3 : (⟨S2048x3072, .f32⟩ : BufTy).Contents (Elt Ideal)) (x4 : (⟨S2048, .f32⟩ : BufTy).Contents (Elt Ideal))
    (x5 : (⟨S2048x3072, .f32⟩ : BufTy).Contents (Elt Ideal)) (x6 : (⟨S2048, .f32⟩ : BufTy).Contents (Elt Ideal))
    (x7 : (⟨S2048x3072, .f32⟩ : BufTy).Contents (Elt Ideal)) (x8 : (⟨S2048, .f32⟩ : BufTy).Contents (Elt Ideal))
    (x9 : (⟨S2048x3072, .f32⟩ : BufTy).Contents (Elt Ideal)) (x10 : (⟨S2048, .f32⟩ : BufTy).Contents (Elt Ideal)) (p : Fin 8192) (q : Fin 2048) :
    val_main_v9 (F := Ideal) x0 x1 x3 x4 x5 x6 x7 x8 x9 x10 (ix2 p q)
      = Cert.Lstm.affine (val_main_v0 (F := Ideal) x0 x1) x5 x6 p q := by
  have e : idx_main_v9 (ix2 p q) = ix2 p (⟨2048 + q.val, by have := q.isLt; omega⟩ : Fin 8192) :=
    funext fun a => Fin.ext (by match a with | ⟨0, _⟩ => rfl | ⟨1, _⟩ => rfl)
  rw [val_main_v9_apply, e]
  exact preact x0 x1 x3 x4 x5 x6 x7 x8 x9 x10 x5 x6 2048
    (fun q c k hc => wall_1 x3 x5 x7 x9 q c k hc) (fun q c hc => ball_1 x4 x6 x8 x10 q c hc) p q _ rfl

/-- The candidate gate's slice of the fused layer (columns from 4096) is that gate's own linear layer. -/
theorem pre_2 (x0 : (⟨S8192x1024, .f32⟩ : BufTy).Contents (Elt Ideal)) (x1 : (⟨S8192x2048, .f32⟩ : BufTy).Contents (Elt Ideal))
    (x3 : (⟨S2048x3072, .f32⟩ : BufTy).Contents (Elt Ideal)) (x4 : (⟨S2048, .f32⟩ : BufTy).Contents (Elt Ideal))
    (x5 : (⟨S2048x3072, .f32⟩ : BufTy).Contents (Elt Ideal)) (x6 : (⟨S2048, .f32⟩ : BufTy).Contents (Elt Ideal))
    (x7 : (⟨S2048x3072, .f32⟩ : BufTy).Contents (Elt Ideal)) (x8 : (⟨S2048, .f32⟩ : BufTy).Contents (Elt Ideal))
    (x9 : (⟨S2048x3072, .f32⟩ : BufTy).Contents (Elt Ideal)) (x10 : (⟨S2048, .f32⟩ : BufTy).Contents (Elt Ideal)) (p : Fin 8192) (q : Fin 2048) :
    val_main_v10 (F := Ideal) x0 x1 x3 x4 x5 x6 x7 x8 x9 x10 (ix2 p q)
      = Cert.Lstm.affine (val_main_v0 (F := Ideal) x0 x1) x7 x8 p q := by
  have e : idx_main_v10 (ix2 p q) = ix2 p (⟨4096 + q.val, by have := q.isLt; omega⟩ : Fin 8192) :=
    funext fun a => Fin.ext (by match a with | ⟨0, _⟩ => rfl | ⟨1, _⟩ => rfl)
  rw [val_main_v10_apply, e]
  exact preact x0 x1 x3 x4 x5 x6 x7 x8 x9 x10 x7 x8 4096
    (fun q c k hc => wall_2 x3 x5 x7 x9 q c k hc) (fun q c hc => ball_2 x4 x6 x8 x10 q c hc) p q _ rfl

/-- The output gate's slice of the fused layer (columns from 6144) is that gate's own linear layer. -/
theorem pre_3 (x0 : (⟨S8192x1024, .f32⟩ : BufTy).Contents (Elt Ideal)) (x1 : (⟨S8192x2048, .f32⟩ : BufTy).Contents (Elt Ideal))
    (x3 : (⟨S2048x3072, .f32⟩ : BufTy).Contents (Elt Ideal)) (x4 : (⟨S2048, .f32⟩ : BufTy).Contents (Elt Ideal))
    (x5 : (⟨S2048x3072, .f32⟩ : BufTy).Contents (Elt Ideal)) (x6 : (⟨S2048, .f32⟩ : BufTy).Contents (Elt Ideal))
    (x7 : (⟨S2048x3072, .f32⟩ : BufTy).Contents (Elt Ideal)) (x8 : (⟨S2048, .f32⟩ : BufTy).Contents (Elt Ideal))
    (x9 : (⟨S2048x3072, .f32⟩ : BufTy).Contents (Elt Ideal)) (x10 : (⟨S2048, .f32⟩ : BufTy).Contents (Elt Ideal)) (p : Fin 8192) (q : Fin 2048) :
    val_main_v11 (F := Ideal) x0 x1 x3 x4 x5 x6 x7 x8 x9 x10 (ix2 p q)
      = Cert.Lstm.affine (val_main_v0 (F := Ideal) x0 x1) x9 x10 p q := by
  have e : idx_main_v11 (ix2 p q) = ix2 p (⟨6144 + q.val, by have := q.isLt; omega⟩ : Fin 8192) :=
    funext fun a => Fin.ext (by match a with | ⟨0, _⟩ => rfl | ⟨1, _⟩ => rfl)
  rw [val_main_v11_apply, e]
  exact preact x0 x1 x3 x4 x5 x6 x7 x8 x9 x10 x9 x10 6144
    (fun q c k hc => wall_3 x3 x5 x7 x9 q c k hc) (fun q c hc => ball_3 x4 x6 x8 x10 q c hc) p q _ rfl

/-- The reference's new cell state is `σ(z_f) · long + σ(z_i) · tanh(z_c)`. -/
theorem cell_eq (x0 : (⟨S8192x1024, .f32⟩ : BufTy).Contents (Elt Ideal)) (x1 x2 : (⟨S8192x2048, .f32⟩ : BufTy).Contents (Elt Ideal))
    (x3 : (⟨S2048x3072, .f32⟩ : BufTy).Contents (Elt Ideal)) (x4 : (⟨S2048, .f32⟩ : BufTy).Contents (Elt Ideal))
    (x5 : (⟨S2048x3072, .f32⟩ : BufTy).Contents (Elt Ideal)) (x6 : (⟨S2048, .f32⟩ : BufTy).Contents (Elt Ideal))
    (x7 : (⟨S2048x3072, .f32⟩ : BufTy).Contents (Elt Ideal)) (x8 : (⟨S2048, .f32⟩ : BufTy).Contents (Elt Ideal))
    (x9 : (⟨S2048x3072, .f32⟩ : BufTy).Contents (Elt Ideal)) (x10 : (⟨S2048, .f32⟩ : BufTy).Contents (Elt Ideal)) :
    val_main_v33 (F := Ideal) x0 x1 x2 x3 x4 x5 x6 x7 x8 x9 x10
      = Cert.Lstm.cellState (val_main_v0 (F := Ideal) x0 x1) x2 x3 x4 x5 x6 x7 x8 := by
  funext j
  obtain ⟨p, q, rfl⟩ : ∃ (p : Fin 8192) (q : Fin 2048), j = ix2 p q := ⟨j 0, j 1, eq_ix2 j⟩
  rw [val_main_v33_apply, val_main_v31_apply, val_main_v32_apply, val_main_v17_apply, val_main_v23_apply,
    val_main_v24_apply, val_main_v16_apply, val_main_v15_apply, val_main_v14_apply, val_main_v13_apply,
    val_main_v12_apply, pre_0, val_main_v22_apply, val_main_v21_apply, val_main_v20_apply, val_main_v19_apply,
    val_main_v18_apply, pre_1, pre_2, val_main_cst_0_apply, val_main_cst_apply, val_main_cst_2_apply,
    val_main_cst_1_apply, host_sigmoid, host_sigmoid, Ideal.addf_def, Ideal.mulf_def, Ideal.mulf_def,
    Ideal.hostUnary_tanh_def]
  rfl

/-- The reference's output gate is `σ(z_o)`. -/
theorem outGate_eq (x0 : (⟨S8192x1024, .f32⟩ : BufTy).Contents (Elt Ideal)) (x1 : (⟨S8192x2048, .f32⟩ : BufTy).Contents (Elt Ideal))
    (x3 : (⟨S2048x3072, .f32⟩ : BufTy).Contents (Elt Ideal)) (x4 : (⟨S2048, .f32⟩ : BufTy).Contents (Elt Ideal))
    (x5 : (⟨S2048x3072, .f32⟩ : BufTy).Contents (Elt Ideal)) (x6 : (⟨S2048, .f32⟩ : BufTy).Contents (Elt Ideal))
    (x7 : (⟨S2048x3072, .f32⟩ : BufTy).Contents (Elt Ideal)) (x8 : (⟨S2048, .f32⟩ : BufTy).Contents (Elt Ideal))
    (x9 : (⟨S2048x3072, .f32⟩ : BufTy).Contents (Elt Ideal)) (x10 : (⟨S2048, .f32⟩ : BufTy).Contents (Elt Ideal)) :
    val_main_v30 (F := Ideal) x0 x1 x3 x4 x5 x6 x7 x8 x9 x10
      = Cert.Lstm.outGate (val_main_v0 (F := Ideal) x0 x1) x9 x10 := by
  funext j
  obtain ⟨p, q, rfl⟩ : ∃ (p : Fin 8192) (q : Fin 2048), j = ix2 p q := ⟨j 0, j 1, eq_ix2 j⟩
  rw [val_main_v30_apply, val_main_v29_apply, val_main_v28_apply, val_main_v27_apply, val_main_v26_apply,
    val_main_v25_apply, pre_3, val_main_cst_4_apply, val_main_cst_3_apply, host_sigmoid]
  rfl

/-- The reference's result is `tanh(cell · W_h2oᵀ + b_h2o) · σ(z_o)`, with `cell` and `σ(z_o)` its own stages. -/
theorem hidden_eq (x0 : (⟨S8192x1024, .f32⟩ : BufTy).Contents (Elt Ideal)) (x1 x2 : (⟨S8192x2048, .f32⟩ : BufTy).Contents (Elt Ideal))
    (x3 : (⟨S2048x3072, .f32⟩ : BufTy).Contents (Elt Ideal)) (x4 : (⟨S2048, .f32⟩ : BufTy).Contents (Elt Ideal))
    (x5 : (⟨S2048x3072, .f32⟩ : BufTy).Contents (Elt Ideal)) (x6 : (⟨S2048, .f32⟩ : BufTy).Contents (Elt Ideal))
    (x7 : (⟨S2048x3072, .f32⟩ : BufTy).Contents (Elt Ideal)) (x8 : (⟨S2048, .f32⟩ : BufTy).Contents (Elt Ideal))
    (x9 : (⟨S2048x3072, .f32⟩ : BufTy).Contents (Elt Ideal)) (x10 : (⟨S2048, .f32⟩ : BufTy).Contents (Elt Ideal))
    (x11 : (⟨S2048x2048, .f32⟩ : BufTy).Contents (Elt Ideal)) (x12 : (⟨S2048, .f32⟩ : BufTy).Contents (Elt Ideal)) :
    val_main_v40 (F := Ideal) x0 x1 x2 x3 x4 x5 x6 x7 x8 x9 x10 x11 x12
      = Cert.Lstm.hidden (val_main_v33 (F := Ideal) x0 x1 x2 x3 x4 x5 x6 x7 x8 x9 x10)
          (val_main_v30 (F := Ideal) x0 x1 x3 x4 x5 x6 x7 x8 x9 x10) x11 x12 := by
  funext j
  obtain ⟨p, q, rfl⟩ : ∃ (p : Fin 8192) (q : Fin 2048), j = ix2 p q := ⟨j 0, j 1, eq_ix2 j⟩
  have e37 : idx_main_v36 (idx_main_v37 (ix2 p q)) = ix1 q :=
    funext fun a => Fin.ext (by match a with | ⟨0, _⟩ => rfl)
  have hs : (∑ k : Fin 2048, (val_main_v33 (F := Ideal) x0 x1 x2 x3 x4 x5 x6 x7 x8 x9 x10) (lidx_main_v35 (ix2 p q) k)
        * (val_main_v34 (F := Ideal) x11) (ridx_main_v35 (ix2 p q) k))
      = ∑ k : Fin 2048, (val_main_v33 (F := Ideal) x0 x1 x2 x3 x4 x5 x6 x7 x8 x9 x10) (ix2 p k) * x11 (ix2 q k) := by
    refine Finset.sum_congr rfl fun k _ => ?_
    have el : lidx_main_v35 (ix2 p q) k = ix2 p k :=
      funext fun a => Fin.ext (by match a with | ⟨0, _⟩ => rfl | ⟨1, _⟩ => rfl)
    have er : idx_main_v34 (ridx_main_v35 (ix2 p q) k) = ix2 q k :=
      funext fun a => Fin.ext (by match a with | ⟨0, _⟩ => rfl | ⟨1, _⟩ => rfl)
    rw [val_main_v34_apply, el, er]
  rw [val_main_v40_apply, val_main_v39_apply, val_main_v38_apply, val_main_v35_apply, val_main_v37_apply,
    val_main_v36_apply, e37, hs, Ideal.mulf_def, Ideal.hostUnary_tanh_def, Ideal.addf_def]
  rfl

end Cert.ReferenceIdeal.Cell

end
-- ==== Proof.lean ====
/-
  Both programs compute one LSTM cell step, and return the gated hidden value and the new cell state.

  The kernel runs two pipelined regions. The first, over a 4 × 32 grid of (hidden tile, batch tile) points,
  forms the four gate pre-activations of a [256, 512] tile — each a full-length product of 256 rows of the
  combined input with 512 rows of one gate's weight, plus the bias — and stores
  σ(z_f) · long + σ(z_i) · tanh(z_c) and σ(z_o). The second, over 32 batch tiles, multiplies the new cell
  state by the transposed projection weight, adds the bias, squashes and gates. The reference fuses the four
  gate layers into one product with the concatenated weights, slices the result into the four gates, and
  spells each sigmoid as 1 / (1 + e^(-z)); the rest is the same formula.

  At the ideal values the two are one function of the arguments, entry by entry: the narrowing to bf16 is the
  identity, a product into a zero accumulator is the plain sum over the contracted axis, a row of the
  concatenated weight is a row of the gate's own weight, and the kernel's one-operation sigmoid is by
  definition 1 / (1 + e^(-z)). No algebraic law is used — every sum has the same terms in the same order —
  so the finiteness of the inputs is never opened. The ideal pass rewrote nothing, so `preserves` is trivial.

  The frames of the two kernel programs are the generated ones; the reference's frame is its generated run with
  the results dropped.
-/
import proofs.«110690_j36258113913000_1_alg».proof.Defs
import proofs.«110690_j36258113913000_1_alg».proof.Proof.Gen.Kernel
import proofs.«110690_j36258113913000_1_alg».proof.Proof.Gen.Kernel.Skeleton
import proofs.«110690_j36258113913000_1_alg».proof.Proof.Gen.Kernel.Launch
import proofs.«110690_j36258113913000_1_alg».proof.Proof.Gen.Kernel.Points
import proofs.«110690_j36258113913000_1_alg».proof.Proof.Gen.Kernel.Frame
import proofs.«110690_j36258113913000_1_alg».proof.Proof.Gen.KernelIdeal
import proofs.«110690_j36258113913000_1_alg».proof.Proof.Gen.KernelIdeal.Skeleton
import proofs.«110690_j36258113913000_1_alg».proof.Proof.Gen.KernelIdeal.Launch
import proofs.«110690_j36258113913000_1_alg».proof.Proof.Gen.KernelIdeal.Points
import proofs.«110690_j36258113913000_1_alg».proof.Proof.Gen.KernelIdeal.Frame
import proofs.«110690_j36258113913000_1_alg».proof.Proof.Gen.ReferenceIdeal
import proofs.«110690_j36258113913000_1_alg».proof.Proof.Gen.Pre_finite_inputs
import proofs.«110690_j36258113913000_1_alg».proof.Proof.Gen.ReferenceIdeal.Run
import proofs.«110690_j36258113913000_1_alg».proof.Proof.Gen.ReferenceIdeal.Read
import proofs.«110690_j36258113913000_1_alg».proof.Proof.KernelRun
import proofs.«110690_j36258113913000_1_alg».proof.Proof.KernelValue
import proofs.«110690_j36258113913000_1_alg».proof.Proof.RefCell
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ledger is empty. -/
theorem preserves : Cert.preserves_Kernel_KernelIdeal := trivial

/-- From memories that agree on the arguments, both runs end with the hidden value and the new cell state at the
    specification's functions of the kernel's arguments. -/
theorem algebraic : Cert.algebraic_KernelIdeal_ReferenceIdeal := by
  intro m ρ m' ρ' _ hagree
  refine ⟨fun c => Cert.Lstm.hidden (Cert.KernelIdeal.Cell.cellOf m c) (Cert.KernelIdeal.Cell.gateOf m c)
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)),
    fun c => Cert.KernelIdeal.Cell.cellOf m c, ?_, ?_⟩
  · refine (θ_run Cert.KernelIdeal.defs _ _).mono (fun r h c => ?_) (Cert.KernelIdeal.Run.run_named (F := Ideal) m ρ)
    exact ⟨(h c).1.trans (Cert.KernelIdeal.Cell.hidden_value m ρ c),
      (h c).2.1.trans (Cert.KernelIdeal.Cell.cell_value m ρ c), (h c).2.2⟩
  · refine (θ_run Cert.ReferenceIdeal.defs _ _).mono (fun r h c => ?_)
      (Cert.ReferenceIdeal.Value.run (F := Ideal) m' ρ')
    obtain ⟨e0, e1, e2, e3, e4, e5, e6, e7, e8, e9, e10, e11, e12⟩ := hagree c
    refine ⟨(h c).1.trans ?_, (h c).2.1.trans ?_, (h c).2.2⟩
    · rw [Cert.ReferenceIdeal.Read.val_main_v40_eq, Cert.ReferenceIdeal.Cell.hidden_eq, Cert.ReferenceIdeal.Cell.cell_eq,
        Cert.ReferenceIdeal.Cell.outGate_eq, e0, e1, e2, e3, e4, e5, e6, e7, e8, e9, e10, e11, e12]
      rfl
    · refine (Cert.ReferenceIdeal.Read.val_main_v33_eq _ _ _ _ _ _ _ _ _ _ _).trans ?_
      rw [Cert.ReferenceIdeal.Cell.cell_eq, e0, e1, e2, e3, e4, e5, e6, e7, e8]
      rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
